-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S1000x8x256 : Shape := ⟨3, ![1000, 8, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x8x256 : S_.BroadcastsInDim S1000x8x256 (![] : Fin 0 → Fin S1000x8x256.rank)
  reducesTo_S1000x8x256_S_d0_1_2 : S1000x8x256.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : IVec S16384 32) (main_arg2 : FVec F S1000x8x256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x8x256 .f32 := Host.absf main_arg2
  let main_cst_0 : FVec F S_ .f32 := constant S_ .f32 0x7F800000#32
  let main_v5 : FVec F S1000x8x256 .f32 := broadcastInDim S1000x8x256 ![] bcast_S_S1000x8x256 main_cst_0
  let main_v6 : IVec S1000x8x256 1 := cmpf .olt main_v4 main_v5
  let main_c_1 : IVec S_ 1 := constantI S_ 1 1#1
  let main_v7 : IVec S_ 1 := (fun x v => Host.reduce IntOp.andi x v reducesTo_S1000x8x256_S_d0_1_2 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x2048 : Shape := ⟨2, ![16384, 2048]⟩
abbrev S16384 : Shape := ⟨1, ![16384]⟩
abbrev S1000x8x256 : Shape := ⟨3, ![1000, 8, 256]⟩
abbrev S1000x2048 : Shape := ⟨2, ![1000, 2048]⟩
abbrev S16384x1 : Shape := ⟨2, ![16384, 1]⟩
abbrev S1x1 : Shape := ⟨2, ![1, 1]⟩
abbrev S512x2048 : Shape := ⟨2, ![512, 2048]⟩
abbrev S512x1 : Shape := ⟨2, ![512, 1]⟩
abbrev S512x1000 : Shape := ⟨2, ![512, 1000]⟩
abbrev S512 : Shape := ⟨1, ![512]⟩
abbrev S1 : Shape := ⟨1, ![1]⟩
abbrev S_ : Shape := ⟨0, ![]⟩
abbrev S1000 : Shape := ⟨1, ![1000]⟩
abbrev S1000x1 : Shape := ⟨2, ![1000, 1]⟩

abbrev nBuf : Space → Nat
  | .hbm => 48
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x8x256, .f32⟩
  | .hbm, ⟨3, _⟩ => ⟨S1000x2048, .f32⟩
  | .hbm, ⟨4, _⟩ => ⟨S1000x2048, .bf16⟩
  | .hbm, ⟨5, _⟩ => ⟨S16384x1, .i32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384, .i32⟩
  | .hbm, ⟨11, _⟩ => ⟨S_, .i32⟩
  | .hbm, ⟨12, _⟩ => ⟨S1000, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S1000, .i32⟩
  | .hbm, ⟨22, _⟩ => ⟨S_, .i32⟩
  | .hbm, ⟨23, _⟩ => ⟨S1000, .i32⟩
  | .hbm, ⟨24, _⟩ => ⟨S1000, .i1⟩
  | .hbm, ⟨25, _⟩ => ⟨S_, .i32⟩
  | .hbm, ⟨26, _⟩ => ⟨S1000, .i32⟩
  | .hbm, ⟨27, _⟩ => ⟨S1000, .i32⟩
  | .hbm, ⟨28, _⟩ => ⟨S_, .i32⟩
  | .hbm, ⟨29, _⟩ => ⟨S1000, .i32⟩
  | .hbm, ⟨30, _⟩ => ⟨S1000, .i1⟩
  | .hbm, ⟨31, _⟩ => ⟨S_, .i32⟩
  | .hbm, ⟨32, _⟩ => ⟨S1000, .i32⟩
  | .hbm, ⟨33, _⟩ => ⟨S1000, .i32⟩
  | .hbm, ⟨34, _⟩ => ⟨S1000, .i32⟩
  | .hbm, ⟨35, _⟩ => ⟨S1000x1, .i32⟩
  | .hbm, ⟨36, _⟩ => ⟨S1000x2048, .f32⟩
  | .hbm, ⟨37, _⟩ => ⟨S1000x1, .i1⟩
  | .hbm, ⟨38, _⟩ => ⟨S_, .f32⟩
  | .hbm, ⟨39, _⟩ => ⟨S1000x2048, .f32⟩
  | .hbm, ⟨40, _⟩ => ⟨S1000x2048, .f32⟩
  | .hbm, ⟨41, _⟩ => ⟨S_, .f32⟩
  | .hbm, ⟨42, _⟩ => ⟨S1000x2048, .f32⟩
  | .hbm, ⟨43, _⟩ => ⟨S1000x2048, .f32⟩
  | .hbm, ⟨44, _⟩ => ⟨S1000x2048, .f32⟩
  | .hbm, ⟨45, _⟩ => ⟨S1000x2048, .i1⟩
  | .hbm, ⟨46, _⟩ => ⟨S1000x2048, .f32⟩
  | .hbm, ⟨47, _⟩ => ⟨S1000x8x256, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S1000x2048, .bf16⟩
  | .local _ .vmem, ⟨5, _⟩ => ⟨S1x1, .f32⟩
  | .local _ .vmem, ⟨6, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v26 : BitVec 1 := Scalar.cmpi .eq arg0 c31_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1000x8x256_S1000x2048 : S1000x8x256.ShapeCasts S1000x2048
  bitsLt_bf16_f32 : FTy.bits .bf16 < FTy.bits .f32
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  broadcasts_S512x1_S512x1000 : S512x1.Broadcasts S512x1000
  natLt_1_32 : 1 < 32
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  bcast_S_S1000 : S_.BroadcastsInDim S1000 (![] : Fin 0 → Fin S1000.rank)
  bcast_S_S16384 : S_.BroadcastsInDim S16384 (![] : Fin 0 → Fin S16384.rank)
  bcast_S1000_S1000x1_0 : S1000.BroadcastsInDim S1000x1 (![0] : Fin 1 → Fin S1000x1.rank)
  bcast_S_S1000x2048 : S_.BroadcastsInDim S1000x2048 (![] : Fin 0 → Fin S1000x2048.rank)
  bcast_S1000x1_S1000x2048_0_1 : S1000x1.BroadcastsInDim S1000x2048 (![0, 1] : Fin 2 → Fin S1000x2048.rank)
  shapeCasts_S1000x2048_S1000x8x256 : S1000x2048.ShapeCasts S1000x8x256
  dot_S512x1000_S1000x2048_S512x2048_1_0_0_1_n_n_wf : DotDims.WF S512x1000 S1000x2048 S512x2048 [1] [0] [0] [1] [] []
  scatter_S1000_S16384x1_S16384_n_0_0_1_wf : ScatterDims.WF S1000 S16384x1 S16384 [] [0] [0] 1
  gather_S16384x2048_S1000x1_S1000x2048_1_0_n_n_0_1_12048_wf : GatherDims.WF S16384x2048 S1000x1 S1000x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S1000x2048.size a
  hwx0_2 : ∀ i : grid0.Coords, EltTy.bits .bf16 = 32 ∨ (Rect.block (s := S1000x2048) S1000x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x1000_S1000x2048_S512x2048_1_0_0_1_n_n : DotDims S512x1000 S1000x2048 S512x2048 where
  lhsContracting := [1]
  rhsContracting := [0]
  lhsNonContracting := [0]
  rhsNonContracting := [1]
  lhsBatch := []
  rhsBatch := []
  wf := dot_S512x1000_S1000x2048_S512x2048_1_0_0_1_n_n_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf
def gather_S16384x2048_S1000x1_S1000x2048_1_0_n_n_0_1_12048 : GatherDims S16384x2048 S1000x1 S1000x2048 where
  offsetDims := [1]
  collapsedSliceDims := [0]
  operandBatchingDims := []
  startIndicesBatchingDims := []
  startIndexMap := [0]
  indexVectorDim := 1
  sliceSizes := ![1, 2048]
  wf := gather_S16384x2048_S1000x1_S1000x2048_1_0_n_n_0_1_12048_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384 : Shape := ⟨1, ![16384]⟩
abbrev S1000x8x256 : Shape := ⟨3, ![1000, 8, 256]⟩
abbrev S_ : Shape := ⟨0, ![]⟩
abbrev S16384x1 : Shape := ⟨2, ![16384, 1]⟩
abbrev S16384x8x256 : Shape := ⟨3, ![16384, 8, 256]⟩
abbrev S16384x8 : Shape := ⟨2, ![16384, 8]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x8x256, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x8x256, .f32⟩
  | .hbm, ⟨12, _⟩ => ⟨S16384x8x256, .f32⟩
  | .hbm, ⟨13, _⟩ => ⟨S16384x8x256, .f32⟩
  | .hbm, ⟨14, _⟩ => ⟨S16384x8x256, .f32⟩
  | .hbm, ⟨15, _⟩ => ⟨S_, .f32⟩
  | .hbm, ⟨16, _⟩ => ⟨S16384x8, .f32⟩
  | .hbm, ⟨17, _⟩ => ⟨S_, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x8x256, .f32⟩
  | .hbm, ⟨28, _⟩ => ⟨S16384x8x256, .f32⟩
  | .hbm, ⟨29, _⟩ => ⟨S_, .f32⟩
  | .hbm, ⟨30, _⟩ => ⟨S16384x8x256, .f32⟩
  | .hbm, ⟨31, _⟩ => ⟨S16384x8x256, .f32⟩
  | .hbm, ⟨32, _⟩ => ⟨S16384x8x256, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1000x8x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S16384x8x256 : S16384x2048.ShapeCasts S16384x8x256
  reducesTo_S16384x8x256_S16384x8_d2 : S16384x8x256.ReducesTo [2] S16384x8
  h_S_ : 0 < S_.numel
  bcast_S_S16384x8 : S_.BroadcastsInDim S16384x8 (![] : Fin 0 → Fin S16384x8.rank)
  reducesTo_S16384x8_S16384_d1 : S16384x8.ReducesTo [1] S16384
  reducesTo_S16384_S_d0 : S16384.ReducesTo [0] S_
  bcast_S_S16384x8x256 : S_.BroadcastsInDim S16384x8x256 (![] : Fin 0 → Fin S16384x8x256.rank)
  gather_S1000x8x256_S16384x1_S16384x8x256_12_0_n_n_0_1_18256_wf : GatherDims.WF S1000x8x256 S16384x1 S16384x8x256 [1, 2] [0] [] [0] [] 1 ![1, 8, 256]
  scatter_S1000x8x256_S16384x1_S16384x8x256_12_0_0_1_wf : ScatterDims.WF S1000x8x256 S16384x1 S16384x8x256 [1, 2] [0] [0] 1

variable [Facts₀]

def gather_S1000x8x256_S16384x1_S16384x8x256_12_0_n_n_0_1_18256 : GatherDims S1000x8x256 S16384x1 S16384x8x256 where
  offsetDims := [1, 2]
  collapsedSliceDims := [0]
  operandBatchingDims := []
  startIndicesBatchingDims := []
  startIndexMap := [0]
  indexVectorDim := 1
  sliceSizes := ![1, 8, 256]
  wf := gather_S1000x8x256_S16384x1_S16384x8x256_12_0_n_n_0_1_18256_wf
def scatter_S1000x8x256_S16384x1_S16384x8x256_12_0_0_1 : ScatterDims S1000x8x256 S16384x1 S16384x8x256 where
  updateWindowDims := [1, 2]
  insertedWindowDims := [0]
  scatterDimsToOperandDims := [0]
  indexVectorDim := 1
  wf := scatter_S1000x8x256_S16384x1_S16384x8x256_12_0_0_1_wf

class Facts : Prop extends Facts₀ where

variable [Facts]
-- ==== Proof.Spec.lean ====
/-
  What both programs compute, as plain functions of the three argument arrays:
  x : 16384 × 2048 samples, l : 16384 class words, cen : 1000 × 8 × 256 class centres.

  * the loss: the sum over all samples n and all 2048 coordinates of (x[n, ·] − cen[l n, ·])², divided by
    256 · 16384 = 4194304;
  * the new centres: class c keeps its centre when no sample carries c, and otherwise becomes
    α · cen[c] + β · x[n] for the LAST sample n that carries c.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![16384, 2048]⟩
abbrev SLab : Shape := ⟨1, ![16384]⟩
abbrev SLab2 : Shape := ⟨2, ![16384, 1]⟩
abbrev SCen : Shape := ⟨3, ![1000, 8, 256]⟩
abbrev SCen2 : Shape := ⟨2, ![1000, 2048]⟩
abbrev S0 : Shape := ⟨0, ![]⟩

/-- Every class word names one of the 1000 classes. -/
def InRange (l : SLab.Idx → BitVec 32) : Prop := ∀ n : Fin 16384, (l (ix1 n)).toNat < 1000

/-- Every entry is a real number. -/
def Finite {s : Shape} (x : s.Idx → EReal) : Prop := ∀ i, ∃ r : ℝ, x i = (r : EReal)

/-- Sample r of tile t. -/
def row (t : Fin 32) (r : Fin 512) : Fin 16384 := ⟨512 * t.val + r.val, by omega⟩

/-- Coordinate e of head h, in the flat 2048-coordinate layout. -/
def col (h : Fin 8) (e : Fin 256) : Fin 2048 := ⟨256 * h.val + e.val, by omega⟩

/-- The class of sample n, as a number. -/
def cls (l : SLab.Idx → BitVec 32) (n : Fin 16384) : ℕ := (l (ix1 n)).toNat

/-- One-hot weight of class k for the class word w. -/
def oh (w : BitVec 32) (k : Fin 1000) : EReal := if w = BitVec.ofNat 32 k.val then 1 else 0

/-- The squared error as the kernel accumulates it: tile by tile, row by row, each row's centre picked by a
    one-hot product over all 1000 classes of the flat centre table. -/
def sqErrTiles (x : SX.Idx → EReal) (l2 : SLab2.Idx → BitVec 32) (cb : SCen2.Idx → EReal) : EReal :=
  ∑ t : Fin 32, ∑ r : Fin 512, ∑ d : Fin 2048,
    (x (ix2 (row t r) d) - ∑ k : Fin 1000, oh (l2 (ix2 (row t r) (0 : Fin 1))) k * cb (ix2 k d))
      * (x (ix2 (row t r) d) - ∑ k : Fin 1000, oh (l2 (ix2 (row t r) (0 : Fin 1))) k * cb (ix2 k d))

/-- Row k of the centre table at head h, coordinate e (zero for a k that is no class). -/
def cenAt (cen : SCen.Idx → EReal) (k : ℕ) (h : Fin 8) (e : Fin 256) : EReal :=
  if hk : k < 1000 then cen (ix3 (⟨k, hk⟩ : Fin 1000) h e) else 0

/-- The total squared error: over samples, heads and coordinates. -/
def sqErr (x : SX.Idx → EReal) (l : SLab.Idx → BitVec 32) (cen : SCen.Idx → EReal) : EReal :=
  ∑ n : Fin 16384, ∑ h : Fin 8, ∑ e : Fin 256,
    (x (ix2 n (col h e)) - cenAt cen (cls l n) h e) * (x (ix2 n (col h e)) - cenAt cen (cls l n) h e)

/-- The loss from the total squared error: divided by 4194304 (the float word 0x4A800000). -/
def lossOf (s : EReal) : S0.Idx → EReal := fun _ => Ideal.div s (Ideal.ofBits .f32 0x4A800000#32)

/-- The last sample carrying class c, if any. -/
def lastOcc (l : SLab.Idx → BitVec 32) (c : Fin 1000) : Option (Fin 16384) :=
  ((List.finRange 16384).filter (fun n => cls l n = c.val)).getLast?

/-- The new centre of class c at head h, coordinate e. The two factors are the float words of 0.999 and 0.001. -/
def newCenAt (x : SX.Idx → EReal) (l : SLab.Idx → BitVec 32) (cen : SCen.Idx → EReal)
    (c : Fin 1000) (h : Fin 8) (e : Fin 256) : EReal :=
  match lastOcc l c with
  | none => cen (ix3 c h e)
  | some n => Ideal.ofBits .f32 0x3F7FBE77#32 * cen (ix3 c h e) + Ideal.ofBits .f32 0x3A83126F#32 * x (ix2 n (col h e))

/-- The new centre table. -/
def newCen (x : SX.Idx → EReal) (l : SLab.Idx → BitVec 32) (cen : SCen.Idx → EReal) : SCen.Idx → EReal :=
  fun i => newCenAt x l cen ⟨(i 0).val, (i 0).isLt⟩ ⟨(i 1).val, (i 1).isLt⟩ ⟨(i 2).val, (i 2).isLt⟩

end Cert.Spec

end
-- ==== Proof.Terms.lean ====
/-
  The host lines of the kernel's program around its one region, as pure functions of the argument arrays:
  what the region is given (the class words as a column, the centre table flattened to 1000 × 2048 in the narrow
  format) and what the lines after the region compute (the loss from the region's 1 × 1 result; the new centre
  table from the last sample of each class, found by a scatter-max of the sample numbers).
-/
import proofs.«429359_j54674933678414_1_alg».proof.Proof.Gen.KernelIdeal

noncomputable section

namespace Cert.KernelIdeal.Terms

open Cert.KernelIdeal Cert.KernelIdeal.Gen Idealize.ShloMosaic Idealize.ShloMosaic.TcCoe

variable {F : FTy → Type} [FloatOps F]

/-- The class words as a 16384 × 1 column: the region's second operand. -/
def lab2 (l : IVec S16384 32) : IVec S16384x1 32 :=
  broadcastInDim S16384x1 ![0] bcast_S16384_S16384x1_0 l

/-- The centre table flattened to 1000 × 2048. -/
def cenFlat (cen : FVec F S1000x8x256 .f32) : FVec F S1000x2048 .f32 :=
  shapeCast _ cen shapeCasts_S1000x8x256_S1000x2048

/-- The flattened centre table in the narrow format: the region's third operand. -/
def cenBf (cen : FVec F S1000x8x256 .f32) : FVec F S1000x2048 .bf16 :=
  truncf .bf16 (cenFlat cen) bitsLt_bf16_f32

/-- The loss from the region's 1 × 1 result. -/
def kLoss (R : FVec F S1x1 .f32) : FVec F S_ .f32 :=
  Host.divf (shapeCast S_ R shapeCasts_S1x1_S_) (constant S_ .f32 0x4A800000#32)

/-- The class words with a negative word wrapped by 1000, as a column: the scatter's positions. -/
def labNorm (l : IVec S16384 32) : IVec S16384x1 32 :=
  broadcastInDim S16384x1 ![0] bcast_S16384_S16384x1_0
    (select (cmpi .slt l (broadcastInDim S16384 ![] bcast_S_S16384 (constantI S_ 32 0#32)))
      (addi l (broadcastInDim S16384 ![] bcast_S_S16384 (constantI S_ 32 1000#32))) l)

/-- Per class, the largest sample number carrying it, −1 when there is none. -/
def lastIdx (l : IVec S16384 32) : IVec S1000 32 :=
  Host.scatter scatter_S1000_S16384x1_S16384_n_0_0_1 IntOp.maxsi
    (broadcastInDim S1000 ![] bcast_S_S1000 (constantI S_ 32 4294967295#32)) (labNorm l) (iotaInDim S16384 32 0)

/-- Per class, whether some sample carries it. -/
def occurs (l : IVec S16384 32) : IVec S1000 1 :=
  cmpi .sge (lastIdx l) (broadcastInDim S1000 ![] bcast_S_S1000 (constantI S_ 32 0#32))

/-- Per class, the last sample's number with −1 raised to 0. -/
def lastIdxC (l : IVec S16384 32) : IVec S1000 32 :=
  maxsi (lastIdx l) (broadcastInDim S1000 ![] bcast_S_S1000 (constantI S_ 32 0#32))

/-- The positions of the row gather: the raised sample numbers, a negative one wrapped by 16384, as a column. -/
def gatherPos (l : IVec S16384 32) : IVec S1000x1 32 :=
  broadcastInDim S1000x1 ![0] bcast_S1000_S1000x1_0
    (select (cmpi .slt (lastIdxC l) (broadcastInDim S1000 ![] bcast_S_S1000 (constantI S_ 32 0#32)))
      (addi (lastIdxC l) (broadcastInDim S1000 ![] bcast_S_S1000 (constantI S_ 32 16384#32))) (lastIdxC l))

/-- Per class, the sample row of its last sample. -/
def xLast (x : FVec F S16384x2048 .f32) (l : IVec S16384 32) : FVec F S1000x2048 .f32 :=
  Host.gather gather_S16384x2048_S1000x1_S1000x2048_1_0_n_n_0_1_12048 x (gatherPos l)

/-- The blended table: 0.999 · centre + 0.001 · last sample row. -/
def blend (x : FVec F S16384x2048 .f32) (l : IVec S16384 32) (cen : FVec F S1000x8x256 .f32) : FVec F S1000x2048 .f32 :=
  addf (mulf (broadcastInDim S1000x2048 ![] bcast_S_S1000x2048 (constant S_ .f32 0x3F7FBE77#32)) (cenFlat cen))
    (mulf (broadcastInDim S1000x2048 ![] bcast_S_S1000x2048 (constant S_ .f32 0x3A83126F#32)) (xLast x l))

/-- The new centre table: the blend where the class occurs, the old centre elsewhere; back in 1000 × 8 × 256. -/
def kCen (x : FVec F S16384x2048 .f32) (l : IVec S16384 32) (cen : FVec F S1000x8x256 .f32) : FVec F S1000x8x256 .f32 :=
  shapeCast _
    (select (broadcastInDim S1000x2048 ![0, 1] bcast_S1000x1_S1000x2048_0_1
        (broadcastInDim S1000x1 ![0] bcast_S1000_S1000x1_0 (occurs l)))
      (blend x l cen) (cenFlat cen))
    shapeCasts_S1000x2048_S1000x8x256

end Cert.KernelIdeal.Terms

end
-- ==== Proof.TileValue.lean ====
/-
  What one tile adds to the accumulator, read at the exact instance: the accumulator's entry plus, over the tile's
  512 rows and 2048 coordinates, the square of (sample entry − one-hot row · centre column). The one-hot row of a
  class word w is 1 at the class k whose number is w and 0 elsewhere; the product with the whole centre table is a
  sum over all 1000 classes.
-/
import proofs.«429359_j54674933678414_1_alg».proof.Proof.Gen.KernelIdeal.Skeleton
import proofs.«429359_j54674933678414_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Tile

open Cert.KernelIdeal Cert.KernelIdeal.Gen Idealize.ShloMosaic Idealize.ShloMosaic.ValueIdx

/-! ## Layout and reduction steps of the tile, read at an index -/

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 2048 coordinates of row r. -/
theorem laneSum_apply (src : FVec Ideal S512x2048 .f32) (hφ : FKind.Formats .f32)
    (hacc : (0x00000000#32 : BitVec 32) = 0x00000000#32) (r : Fin 512) :
    multiReduction (F := Ideal) .add [1] S512 src 0x00000000#32 reduces_S512x2048_S512 hφ hacc (ix1 r)
      = ∑ d : Fin 2048, src (ix2 r d) := by
  refine (Ideal.multiReduction_add_single src 0x00000000#32 reduces_S512x2048_S512 hφ hacc (ix1 r)).trans ?_
  refine Finset.sum_congr rfl fun d _ => congrArg src ?_
  funext c
  match c with
  | ⟨0, _⟩ => rfl
  | ⟨1, _⟩ => rfl

/-- The sum down the 512 rows of a one-column matrix. -/
theorem rowSum_apply (src : FVec Ideal S512x1 .f32) (hφ : FKind.Formats .f32)
    (hacc : (0x00000000#32 : BitVec 32) = 0x00000000#32) (u : Fin 1) :
    multiReduction (F := Ideal) .add [0] S1 src 0x00000000#32 reduces_S512x1_S1 hφ hacc (ix1 u)
      = ∑ r : Fin 512, src (ix2 r u) := by
  refine (Ideal.multiReduction_add_single src 0x00000000#32 reduces_S512x1_S1 hφ hacc (ix1 u)).trans ?_
  refine Finset.sum_congr rfl fun r _ => congrArg src ?_
  funext c
  match c with
  | ⟨0, _⟩ => rfl
  | ⟨1, _⟩ => rfl

/-! ## The product with the one-hot rows -/

/-- The tile's matrix product into the zero accumulator, at (r, d): the sum over the 1000 classes. -/
theorem matmul_tile_apply (lhs : FVec Ideal S512x1000 .bf16) (rhs : FVec Ideal S1000x2048 .bf16) (r : Fin 512) (d : Fin 2048) :
    matmul (F := Ideal) dot_S512x1000_S1000x2048_S512x2048_1_0_0_1_n_n none lhs rhs
        (constant (F := Ideal) S512x2048 .f32 0x00000000#32) (ix2 r d)
      = ∑ k : Fin 1000, lhs (ix2 r k) * rhs (ix2 k d) := by
  show FloatOps.matmul _ none lhs rhs _ (ix2 r d) = _
  rw [Ideal.matmul_constant_zero_apply,
    ← Equiv.sum_comp (contrEquiv1 dot_S512x1000_S1000x2048_S512x2048_1_0_0_1_n_n 1000 rfl rfl).symm]
  refine Finset.sum_congr rfl fun c _ => ?_
  have c2 := contrEquiv1_symm_val dot_S512x1000_S1000x2048_S512x2048_1_0_0_1_n_n 1000 rfl rfl c
  have l2 : dot_S512x1000_S1000x2048_S512x2048_1_0_0_1_n_n.lhsIdx (ix2 r d)
      ((contrEquiv1 _ 1000 rfl rfl).symm c) = ix2 r c := by
    funext ax; apply Fin.ext
    match ax with
    | ⟨0, _⟩ => simp [DotDims.lhsIdx, dot_S512x1000_S1000x2048_S512x2048_1_0_0_1_n_n]; rfl
    | ⟨1, _⟩ => simp [DotDims.lhsIdx, dot_S512x1000_S1000x2048_S512x2048_1_0_0_1_n_n]; exact c2
  have r2 : dot_S512x1000_S1000x2048_S512x2048_1_0_0_1_n_n.rhsIdx (ix2 r d)
      ((contrEquiv1 _ 1000 rfl rfl).symm c) = ix2 c d := by
    funext ax; apply Fin.ext
    match ax with
    | ⟨0, _⟩ => simp [DotDims.rhsIdx, dot_S512x1000_S1000x2048_S512x2048_1_0_0_1_n_n]; exact c2
    | ⟨1, _⟩ => simp [DotDims.rhsIdx, dot_S512x1000_S1000x2048_S512x2048_1_0_0_1_n_n]; rfl
  rw [l2, r2]

/-! ## The one-hot rows -/

/-- The comparison of the class column with the class numbers, widened and converted, at (r, k): the one-hot
    weight of class k for row r's class word. -/
theorem onehot_apply (v3 : Vec Ideal S512x1 .i32) (r : Fin 512) (k : Fin 1000) :
    (truncf .bf16 (sitofp (F := Ideal) .f32 (extui 32 (cmpi .eq
        (broadcastTo S512x1000 (shapeCast S512x1 v3 shapeCasts_S512x1_S512x1) broadcasts_S512x1_S512x1000)
        (iota .tc S512x1000 32 [1] iota_S512x1000_d1_w32)) natLt_1_32)) bitsLt_bf16_f32 : FVec Ideal S512x1000 .bf16) (ix2 r k)
      = Cert.Spec.oh (v3 (ix2 r (0 : Fin 1))) k := by
  rw [truncf_apply, sitofp_apply, extui_apply]
  show FloatOps.sitofp (F := Ideal) .f32 ((IntOp.cmpi .eq
      (broadcastTo S512x1000 (shapeCast S512x1 v3 shapeCasts_S512x1_S512x1) broadcasts_S512x1_S512x1000 (ix2 r k))
      (iota .tc S512x1000 32 [1] iota_S512x1000_d1_w32 (ix2 r k))).setWidth 32) = _
  have hb : broadcastTo S512x1000 (shapeCast S512x1 v3 shapeCasts_S512x1_S512x1) broadcasts_S512x1_S512x1000 (ix2 r k)
      = v3 (ix2 r (0 : Fin 1)) := by
    rw [shapeCast_self]
    refine broadcastTo_apply v3 broadcasts_S512x1_S512x1000 (ix2 r k) (ix2 r (0 : Fin 1)) fun ax => ?_
    match ax with
    | ⟨0, _⟩ => rfl
    | ⟨1, _⟩ => rfl
  have hi : iota .tc S512x1000 32 [1] iota_S512x1000_d1_w32 (ix2 r k) = BitVec.ofNat 32 k.val :=
    iota_single_apply .tc S512x1000 32 1 iota_S512x1000_d1_w32 (ix2 r k)
  rw [hb, hi]
  show (((((IntOp.cmpi .eq (v3 (ix2 r (0 : Fin 1))) (BitVec.ofNat 32 k.val)).setWidth 32).toInt : ℝ)) : EReal) = _
  unfold Cert.Spec.oh
  by_cases h : v3 (ix2 r (0 : Fin 1)) = BitVec.ofNat 32 k.val
  · rw [if_pos h, h]
    simp [IntOp.cmpi]
  · rw [if_neg h]
    have hbeq : (v3 (ix2 r (0 : Fin 1)) == BitVec.ofNat 32 k.val) = false := beq_eq_false_iff_ne.mpr h
    simp [IntOp.cmpi, hbeq]

/-- The value the first tile clears the accumulator to. -/
theorem pay1_apply (y : S1x1.Idx) : Gen.k0_pay1 (F := Ideal) y = 0 := by
  unfold Gen.k0_pay1
  rw [shapeCast_self, broadcast_apply]
  exact Ideal.ofBits_zero_f32

/-- The value every tile stores back into the accumulator: what it held plus the tile's sum of squares. -/
theorem pay2_apply (v3 : Vec Ideal S512x1 .i32) (v11 : Vec Ideal S1000x2048 .bf16) (v14 : Vec Ideal S512x2048 .f32)
    (v21 : Vec Ideal S1x1 .f32) (y : S1x1.Idx) :
    Gen.k0_pay2 (F := Ideal) v3 v11 v14 v21 y
      = v21 y + ∑ r : Fin 512, ∑ d : Fin 2048,
          (v14 (ix2 r d) - ∑ k : Fin 1000, Cert.Spec.oh (v3 (ix2 r (0 : Fin 1))) k * v11 (ix2 k d))
            * (v14 (ix2 r d) - ∑ k : Fin 1000, Cert.Spec.oh (v3 (ix2 r (0 : Fin 1))) k * v11 (ix2 k d)) := by
  obtain ⟨y0, y1, rfl⟩ : ∃ (a : Fin 1) (b : Fin 1), y = ix2 a b := ⟨y 0, y 1, eq_ix2 y⟩
  unfold Gen.k0_pay2
  rw [shapeCast_self, addf_apply]
  congr 1
  refine (shapeCast_a_1a_apply _ _ y0 y1).trans ?_
  refine (rowSum_apply _ _ _ y1).trans ?_
  refine Finset.sum_congr rfl fun r _ => ?_
  refine (shapeCast_a_a1_apply _ _ r y1).trans ?_
  refine (laneSum_apply _ _ _ r).trans ?_
  refine Finset.sum_congr rfl fun d _ => ?_
  rw [mulf_apply, subf_apply, matmul_tile_apply]
  have hs : ∀ k : Fin 1000,
      (truncf .bf16 (sitofp (F := Ideal) .f32 (extui 32 (cmpi .eq
        (broadcastTo S512x1000 (shapeCast S512x1 v3 shapeCasts_S512x1_S512x1) broadcasts_S512x1_S512x1000)
        (iota .tc S512x1000 32 [1] iota_S512x1000_d1_w32)) natLt_1_32)) bitsLt_bf16_f32 : FVec Ideal S512x1000 .bf16) (ix2 r k)
        * shapeCast S1000x2048 v11 shapeCasts_S1000x2048_S1000x2048 (ix2 k d)
        = Cert.Spec.oh (v3 (ix2 r (0 : Fin 1))) k * v11 (ix2 k d) := fun k => by
    rw [onehot_apply, shapeCast_self]
  rw [Finset.sum_congr rfl fun k _ => hs k]

end Cert.KernelIdeal.Tile

end
-- ==== Proof.KernelBody.lean ====
/-
  What the region leaves in its 1 × 1 result: the squared error summed tile by tile.

  The accumulator is cleared at the first tile, every tile adds its own sum of squares to it, and the last tile copies
  it to the result block, which is written back once. A tile's sum of squares is, row by row, the lane sum of
  (x − one-hot · centres)², the one-hot product picking the row's centre out of the whole flat centre table.
-/
import proofs.«429359_j54674933678414_1_alg».proof.Proof.Gen.KernelIdeal.Frame
import proofs.«429359_j54674933678414_1_alg».proof.Proof.Spec
import proofs.«429359_j54674933678414_1_alg».proof.Proof.Terms
import proofs.«429359_j54674933678414_1_alg».proof.Proof.TileValue
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Pipeline (Dat)

section Pieces

variable {F : FTy → Type} [FloatOps F]

/-- The two zero offsets of a whole 2-axis block, however spelt. -/
theorem hz : (![0, 0] : Fin 2 → Nat) = fun _ => 0 := funext fun a => by fin_cases a <;> rfl

/-- The first tile: the accumulator is cleared, read back, and the tile's value over the cleared entry stored. -/
theorem sout_A (c : Dev nD) (i : grid0.Coords) (arg1 : Memref sig .tc .vmem S512x2048 .f32) (harg1 : arg1.IsWhole) (arg2 : Memref sig .tc .vmem S512x1 .i32) (harg2 : arg2.IsWhole) (arg3 : Memref sig .tc .vmem S1000x2048 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S512x2048 .f32) (x1 : Vec F S512x1 .i32) (x2 : Vec F S1000x2048 .bf16) :
    sout0_A_0 c i arg1 harg1 arg2 harg2 arg3 harg3 arg4 harg4 arg5 harg5 hc0 hc1 x0 x1 x2
      = k0_pay2 x1 x2 x0 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz]
  simp only [View.readAt_eq_ld, harg1.read_unread, harg2.read_unread, harg3.read_unread,
    View.ld_unit_zero (S := S512x1) hz, View.ld_unit_zero (S := S1000x2048) hz, View.ld_unit_zero (S := S512x2048) hz,
    View.readCov_unit_zero (S := S1x1) _ hz]

/-- A middle tile: the tile's value over what the tile before left. -/
theorem sout_B (c : Dev nD) (i : grid0.Coords) (arg1 : Memref sig .tc .vmem S512x2048 .f32) (harg1 : arg1.IsWhole) (arg2 : Memref sig .tc .vmem S512x1 .i32) (harg2 : arg2.IsWhole) (arg3 : Memref sig .tc .vmem S1000x2048 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S512x2048 .f32) (x1 : Vec F S512x1 .i32) (x2 : Vec F S1000x2048 .bf16) (xs0 : Vec F S1x1 .f32) :
    sout0_B_0 c i arg1 harg1 arg2 harg2 arg3 harg3 arg4 harg4 arg5 harg5 hc0 hc1 x0 x1 x2 xs0
      = k0_pay2 x1 x2 x0 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero (S := S1x1) hz]
  simp only [View.readAt_eq_ld, harg1.read_unread, harg2.read_unread, harg3.read_unread, harg5.read_unread,
    View.ld_unit_zero (S := S512x1) hz, View.ld_unit_zero (S := S1000x2048) hz, View.ld_unit_zero (S := S512x2048) hz,
    View.ld_unit_zero (S := S1x1) hz]

/-- The last tile, the accumulator: as at a middle tile. -/
theorem sout_C (c : Dev nD) (i : grid0.Coords) (arg1 : Memref sig .tc .vmem S512x2048 .f32) (harg1 : arg1.IsWhole) (arg2 : Memref sig .tc .vmem S512x1 .i32) (harg2 : arg2.IsWhole) (arg3 : Memref sig .tc .vmem S1000x2048 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S512x2048 .f32) (x1 : Vec F S512x1 .i32) (x2 : Vec F S1000x2048 .bf16) (xs0 : Vec F S1x1 .f32) :
    sout0_C_0 c i arg1 harg1 arg2 harg2 arg3 harg3 arg4 harg4 arg5 harg5 hc0 hc1 x0 x1 x2 xs0
      = k0_pay2 x1 x2 x0 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) hz]
  simp only [View.readAt_eq_ld, harg1.read_unread, harg2.read_unread, harg3.read_unread, harg5.read_unread,
    View.ld_unit_zero (S := S512x1) hz, View.ld_unit_zero (S := S1000x2048) hz, View.ld_unit_zero (S := S512x2048) hz,
    View.ld_unit_zero (S := S1x1) hz]

/-- The last tile, the result block: the accumulator's new value, copied. -/
theorem out_C (c : Dev nD) (i : grid0.Coords) (arg1 : Memref sig .tc .vmem S512x2048 .f32) (harg1 : arg1.IsWhole) (arg2 : Memref sig .tc .vmem S512x1 .i32) (harg2 : arg2.IsWhole) (arg3 : Memref sig .tc .vmem S1000x2048 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S512x2048 .f32) (x1 : Vec F S512x1 .i32) (x2 : Vec F S1000x2048 .bf16) (xs0 : Vec F S1x1 .f32) :
    out0_C_3 c i arg1 harg1 arg2 harg2 arg3 harg3 arg4 harg4 arg5 harg5 hc0 hc1 x0 x1 x2 xs0
      = k0_pay2 x1 x2 x0 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg5.read_unread,
    View.ld_unit_zero (S := S512x1) hz, View.ld_unit_zero (S := S1000x2048) hz, View.ld_unit_zero (S := S512x2048) hz,
    View.ld_unit_zero (S := S1x1) hz]

end Pieces

variable (m : (ℓ : Loc nD τ sig) → Buf (Elt Ideal) ℓ)

open Idealize.ShloMosaic.ValueIdx
open scoped BigOperators

/-! ## The blocks a tile reads, and the arrays they are cut from -/

/-- The tile's 512 sample rows. -/
abbrev xblk (c : Dev nD) (t : Fin cfg0.N) : Vec Ideal S512x2048 .f32 := iblk m c 0 t
/-- The tile's 512 class words, a column. -/
abbrev lblk (c : Dev nD) (t : Fin cfg0.N) : Vec Ideal S512x1 .i32 := iblk m c 1 t
/-- The whole flat centre table, the same at every tile. -/
abbrev cblk (c : Dev nD) (t : Fin cfg0.N) : Vec Ideal S1000x2048 .bf16 := iblk m c 2 t
/-- The sample array as the region finds it. -/
abbrev xarr (c : Dev nD) : Vec Ideal S16384x2048 .f32 := V m c main_arg0
/-- The class column as the region finds it. -/
abbrev larr (c : Dev nD) : Vec Ideal S16384x1 .i32 := V m c main_v2
/-- The flat narrow centre table as the region finds it. -/
abbrev carr (c : Dev nD) : Vec Ideal S1000x2048 .bf16 := V m c main_v1

/-- Where each window's block sits at tile t: the sample and class blocks at block row t, the centre table and the
    result at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A grid point as a tile number. -/
abbrev tileIx (t : Fin cfg0.N) : Fin 32 := ⟨t.val, lt_of_lt_of_eq t.isLt (show cfg0.N = 32 from N_0)⟩

/-- Row r of tile t's sample block is sample 512 t + r. -/
theorem xblk_apply (c : Dev nD) (t : Fin cfg0.N) (r : Fin 512) (d : Fin 2048) :
    xblk m c t (ix2 r d) = xarr m c (ix2 (Cert.Spec.row (tileIx t) r) d) := by
  obtain ⟨e0, e1, -, -, -, -, -, -⟩ := idx_facts t
  show V m c main_arg0 (((cfg0.win 0).blk t).view.emb (ix2 r d)) = V m c main_arg0 (ix2 (Cert.Spec.row (tileIx t) r) d)
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 2048 + 1 * d.val = d.val; rw [e1]; omega

/-- Row r of tile t's class block is the class word of sample 512 t + r. -/
theorem lblk_apply (c : Dev nD) (t : Fin cfg0.N) (r : Fin 512) :
    lblk m c t (ix2 r (0 : Fin 1)) = larr m c (ix2 (Cert.Spec.row (tileIx t) r) (0 : Fin 1)) := by
  obtain ⟨-, -, e0, e1, -, -, -, -⟩ := idx_facts t
  show V m c main_v2 (((cfg0.win 1).blk t).view.emb (ix2 r (0 : Fin 1))) = V m c main_v2 (ix2 (Cert.Spec.row (tileIx t) r) (0 : Fin 1))
  congr 1
  funext a; apply Fin.ext
  match a with
  | ⟨0, _⟩ => show win0_1.index t (0 : Fin 2) * 512 + 1 * r.val = 512 * t.val + r.val; rw [e0]; omega
  | ⟨1, _⟩ => show win0_1.index t (1 : Fin 2) * 1 + 1 * (0 : Fin 1).val = (0 : Fin 1).val; rw [e1]; rfl

/-- The centre block is the whole table. -/
theorem cblk_apply (c : Dev nD) (t : Fin cfg0.N) (k : Fin 1000) (d : Fin 2048) :
    cblk m c t (ix2 k d) = carr m c (ix2 k d) := by
  obtain ⟨-, -, -, -, e0, e1, -, -⟩ := idx_facts t
  show V m c main_v1 (((cfg0.win 2).blk t).view.emb (ix2 k d)) = V m c main_v1 (ix2 k d)
  congr 1
  funext a; apply Fin.ext
  match a with
  | ⟨0, _⟩ => show win0_2.index t (0 : Fin 2) * 1000 + 1 * k.val = k.val; rw [e0]; omega
  | ⟨1, _⟩ => show win0_2.index t (1 : Fin 2) * 2048 + 1 * d.val = d.val; rw [e1]; omega

/-! ## One tile's sum of squares, and the running sum -/

/-- Tile t's sum of squares over the arrays: rows 512 t … 512 t + 511, all 2048 coordinates. -/
def tileVal (X : Cert.Spec.SX.Idx → EReal) (L2 : Cert.Spec.SLab2.Idx → BitVec 32) (CB : Cert.Spec.SCen2.Idx → EReal)
    (t : Fin 32) : EReal :=
  ∑ r : Fin 512, ∑ d : Fin 2048,
    (X (ix2 (Cert.Spec.row t r) d) - ∑ k : Fin 1000, Cert.Spec.oh (L2 (ix2 (Cert.Spec.row t r) (0 : Fin 1))) k * CB (ix2 k d))
      * (X (ix2 (Cert.Spec.row t r) d) - ∑ k : Fin 1000, Cert.Spec.oh (L2 (ix2 (Cert.Spec.row t r) (0 : Fin 1))) k * CB (ix2 k d))

/-- The same by a natural number, zero past the last tile. -/
def tileN (X : Cert.Spec.SX.Idx → EReal) (L2 : Cert.Spec.SLab2.Idx → BitVec 32) (CB : Cert.Spec.SCen2.Idx → EReal)
    (n : ℕ) : EReal :=
  if h : n < 32 then tileVal X L2 CB ⟨n, h⟩ else 0

/-- All 32 tiles together are the tile-by-tile squared error. -/
theorem sum_tileN (X : Cert.Spec.SX.Idx → EReal) (L2 : Cert.Spec.SLab2.Idx → BitVec 32) (CB : Cert.Spec.SCen2.Idx → EReal) :
    ∑ n ∈ Finset.range 32, tileN X L2 CB n = Cert.Spec.sqErrTiles X L2 CB := by
  rw [Finset.sum_range]
  unfold Cert.Spec.sqErrTiles
  refine Finset.sum_congr rfl fun t _ => ?_
  unfold tileN
  rw [dif_pos t.isLt]
  rfl

/-- A tile's sum of squares over its blocks is its sum of squares over the arrays. -/
theorem tile_blocks (c : Dev nD) (t : Fin cfg0.N) :
    (∑ r : Fin 512, ∑ d : Fin 2048,
      (xblk m c t (ix2 r d) - ∑ k : Fin 1000, Cert.Spec.oh (lblk m c t (ix2 r (0 : Fin 1))) k * cblk m c t (ix2 k d))
        * (xblk m c t (ix2 r d) - ∑ k : Fin 1000, Cert.Spec.oh (lblk m c t (ix2 r (0 : Fin 1))) k * cblk m c t (ix2 k d)))
      = tileN (xarr m c) (larr m c) (carr m c) t.val := by
  unfold tileN
  rw [dif_pos (lt_of_lt_of_eq t.isLt (show cfg0.N = 32 from N_0))]
  unfold tileVal
  refine Finset.sum_congr rfl fun r _ => Finset.sum_congr rfl fun d _ => ?_
  have hc : ∀ k : Fin 1000, cblk m c t (ix2 k d) = carr m c (ix2 k d) := fun k => cblk_apply m c t k d
  rw [xblk_apply m c t r d, lblk_apply m c t r]
  simp only [hc]

/-- THE RUNNING SUM: after tile n the accumulator holds the sum of squares of tiles 0 … n. -/
theorem acc_eq (c : Dev nD) : ∀ (n : ℕ) (hn : n < cfg0.N) (y : S1x1.Idx),
    (outsAt0 m c n hn).2 y = ∑ t ∈ Finset.range (n + 1), tileN (xarr m c) (larr m c) (carr m c) t
  | 0, hn, y => by
    have h0 : (⟨0, hn⟩ : Fin cfg0.N).val % 32 = 0 := rfl
    have h1 : ¬(⟨0, hn⟩ : Fin cfg0.N).val % 32 = 31 := by dsimp only; omega
    rw [outsAt0_A m c ⟨0, hn⟩ h0 h1]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr h0) (fun h => h1 ((hcond0_1 ⟨0, hn⟩).mp h)) (xblk m c ⟨0, hn⟩) (lblk m c ⟨0, hn⟩) (cblk m c ⟨0, hn⟩)) y).trans ?_
    refine (Tile.pay2_apply (lblk m c ⟨0, hn⟩) (cblk m c ⟨0, hn⟩) (xblk m c ⟨0, hn⟩) (k0_pay1 (F := Ideal)) y).trans ?_
    rw [Tile.pay1_apply y, zero_add, Finset.sum_range_succ, Finset.sum_range_zero, zero_add]
    exact tile_blocks m c ⟨0, hn⟩
  | n + 1, hn, y => by
    have hN : n + 1 < 32 := lt_of_lt_of_eq hn (show cfg0.N = 32 from N_0)
    have h0 : ¬(⟨n + 1, hn⟩ : Fin cfg0.N).val % 32 = 0 := by dsimp only; omega
    have ih := acc_eq c n (Nat.lt_of_succ_lt hn) y
    by_cases h1 : (⟨n + 1, hn⟩ : Fin cfg0.N).val % 32 = 31
    · rw [outsAt0_C m c ⟨n + 1, hn⟩ h0 h1]
      dsimp only
      refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (xblk m c ⟨n + 1, hn⟩) (lblk m c ⟨n + 1, hn⟩) (cblk m c ⟨n + 1, hn⟩) (outsAt0 m c n (Nat.lt_of_succ_lt hn)).2) y).trans ?_
      refine (Tile.pay2_apply (lblk m c ⟨n + 1, hn⟩) (cblk m c ⟨n + 1, hn⟩) (xblk m c ⟨n + 1, hn⟩) (outsAt0 m c n (Nat.lt_of_succ_lt hn)).2 y).trans ?_
      rw [Finset.sum_range_succ _ (n + 1), ih, tile_blocks m c ⟨n + 1, hn⟩]
    · rw [outsAt0_B m c ⟨n + 1, hn⟩ h0 h1]
      dsimp only
      refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (xblk m c ⟨n + 1, hn⟩) (lblk m c ⟨n + 1, hn⟩) (cblk m c ⟨n + 1, hn⟩) (outsAt0 m c n (Nat.lt_of_succ_lt hn)).2) y).trans ?_
      refine (Tile.pay2_apply (lblk m c ⟨n + 1, hn⟩) (cblk m c ⟨n + 1, hn⟩) (xblk m c ⟨n + 1, hn⟩) (outsAt0 m c n (Nat.lt_of_succ_lt hn)).2 y).trans ?_
      rw [Finset.sum_range_succ _ (n + 1), ih, tile_blocks m c ⟨n + 1, hn⟩]

/-- At the last tile the result block is the accumulator's copy. -/
theorem out_eq_acc (c : Dev nD) (t : Fin cfg0.N) (h1 : t.val % 32 = 31) :
    (outsAt0 m c t.val t.isLt).1 = (outsAt0 m c t.val t.isLt).2 := by
  have h0 : ¬t.val % 32 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (lblk m c t) (cblk m c t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (lblk m c t) (cblk m c t) (outsAt0 m c (t.val - 1) (Nat.lt_of_le_of_lt (Nat.sub_le _ _) t.isLt)).2).symm

/-! ## The one write-back -/

/-- All 32 tiles' sums of squares. -/
def total (c : Dev nD) : EReal := ∑ n ∈ Finset.range 32, tileN (xarr m c) (larr m c) (carr m c) n

/-- The 1 × 1 result array: that sum at its one index. -/
abbrev result (c : Dev nD) : Buf (Elt Ideal) ((c.tc : Thread nD τ).loc main_v3) := fun _ => total m c

/-- The last tile, the only one that writes the result block back, writes the full sum. -/
theorem flushed_eq (c : Dev nD) (t : Fin cfg0.N) (hf : (cfg0.win 3).flush t = true) :
    (dats m 0 c).flushed 3 t = ((cfg0.win 3).blk t).view.read (Elt Ideal) (result m c) := by
  have h31 : t.val % 32 = 31 := (flush0_3 t).mp hf
  have hN : t.val < 32 := lt_of_lt_of_eq t.isLt (show cfg0.N = 32 from N_0)
  have ht : t.val + 1 = 32 := by omega
  show (cfg0.win 3).cut (grid0.coords t) ((dats m 0 c).after 3 t) = _
  rw [after0_3, out_eq_acc m c t h31]
  funext y
  show (outsAt0 m c t.val t.isLt).2 _ = total m c
  unfold total
  rw [acc_eq m c t.val t.isLt _, ht]

/-- An index of the 1 × 1 array is in tile t's result block iff each coordinate is in the block's range. -/
theorem mem_blk3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v3).slice (win0_3.rect t)).set ↔ _
  rw [View.set_slice_whole, Rect.mem_set_unit]
  exact Iff.rfl

/-- The last grid point. -/
abbrev tLast : Fin cfg0.N := ⟨31, by rw [show cfg0.N = 32 from N_0]; decide⟩

/-- So the result array ends at the full sum. -/
theorem final_result (c : Dev nD) : (dats m 0 c).arrAt 3 cfg0.N = result m c :=
  (dats m 0 c).arrAt_eq_of_cover 3 (result m c) (flushed_eq m c) fun i =>
    ⟨tLast, (flush0_3 tLast).mpr rfl, by
      obtain ⟨-, -, -, -, -, -, e0, e1⟩ := idx_facts tLast
      rw [mem_blk3]
      intro a
      have h0 : (i 0).val < 1 := (i 0).isLt
      have h1 : (i 1).val < 1 := (i 1).isLt
      match a with
      | ⟨0, _⟩ => show win0_3.index tLast (0 : Fin 2) * 1 ≤ (i 0).val ∧ (i 0).val < win0_3.index tLast (0 : Fin 2) * 1 + 1; rw [e0]; omega
      | ⟨1, _⟩ => show win0_3.index tLast (1 : Fin 2) * 1 ≤ (i 1).val ∧ (i 1).val < win0_3.index tLast (1 : Fin 2) * 1 + 1; rw [e1]; omega⟩

/-! ## The arrays the region finds, from the arguments -/

/-- No host line before the region writes the samples. -/
theorem xarr_eq (c : Dev nD) : xarr m c = m ((c.tc : Thread nD τ).loc main_arg0) := V_main_arg0 m c

/-- The class column is the class words broadcast along a unit axis. -/
theorem larr_eq (c : Dev nD) : larr m c = Terms.lab2 (m ((c.tc : Thread nD τ).loc main_arg1)) := by
  show StableHlo.after hostOps0 (fun b => m (c, b)) (Proc.devRef .tc main_v2) = _
  after_results
  rfl

/-- The centre table the region reads is the argument flattened and narrowed. -/
theorem carr_eq (c : Dev nD) : carr m c = Terms.cenBf (F := Ideal) (m ((c.tc : Thread nD τ).loc main_arg2)) := by
  show StableHlo.after hostOps0 (fun b => m (c, b)) (Proc.devRef .tc main_v1) = _
  after_results
  rfl

/-- After the last tile the region's result array holds the squared error of all tiles. -/
theorem final3 (c : Dev nD) :
    (Gen.dats (F := Ideal) m 0 c).arrAt 3 cfg0.N
      = fun _ => Cert.Spec.sqErrTiles (m ((c.tc : Thread nD τ).loc main_arg0))
          (Terms.lab2 (m ((c.tc : Thread nD τ).loc main_arg1)))
          (Terms.cenBf (F := Ideal) (m ((c.tc : Thread nD τ).loc main_arg2))) := by
  rw [final_result m c]
  funext _
  show total m c = _
  unfold total
  rw [xarr_eq m c, larr_eq m c, carr_eq m c, sum_tileN]

end Cert.KernelIdeal.Body

end
-- ==== Proof.KernelRun.lean ====
/-
  The kernel's program run to its end, with both results named: the loss is the region's squared error divided by
  4194304, the new centre table is what the host lines after the region compute from the arguments.

  The lines after the region are read once, over an arbitrary assignment of contents to the buffers: the loss is the
  quotient of the region's 1 × 1 result by the constant, and the new centre table is a function of the sample array,
  the class words and the flattened centre table alone. The region's run then says what those buffers hold when the
  lines start: the result array holds the summed squared error, the sample array is an input the region never writes
  back, and the class words and the flattened table are no array of the region, so they are as the lines before the
  region left them.
-/
import proofs.«429359_j54674933678414_1_alg».proof.Proof.KernelBody
import Idealize.ShloMosaic.Lib.StableHlo.Run

-- the new centre table is one term some forty operations deep; comparing it with its definition descends that far
set_option maxRecDepth 8192

noncomputable section

namespace Cert.KernelIdeal.Run

open Cert.KernelIdeal Cert.KernelIdeal.Gen Idealize.ShloMosaic Idealize.ShloMosaic.TcCoe Idealize.SL.Sem

/-! ## The lines after the region, over any contents -/

/-- The loss of a 1 × 1 array that holds `s`: its one entry divided by 4194304. -/
theorem kLoss_const (s : EReal) : Terms.kLoss (F := Ideal) (fun _ => s) = Cert.Spec.lossOf s := by
  funext i; rfl

/-- After the lines that follow the region the loss buffer holds the quotient of what the region's result array held
    when they started: of those lines only the reshape to a scalar and the division write on the way to it. -/
theorem tail_loss (W : Valuation τ sig (Elt Ideal)) :
    StableHlo.after (List.flatten [hostOps1, hostOps1_1, hostOps1_2]) W (Proc.devRef .tc main_v5)
      = Terms.kLoss (F := Ideal) (W (Proc.devRef .tc main_v3)) := by
  simp only [Gen.hostOps1, Gen.hostOps1_1, Gen.hostOps1_2, List.flatten_cons, List.flatten_nil, List.append_nil,
    List.cons_append, List.nil_append]
  after_results
  rfl

/-- After the lines that follow the region the new-centres buffer holds `Terms.kCen` of the samples `x`, the class
    words `l` and the centre table `cen`, when the lines start from contents with the samples and the class words in
    their argument buffers and the flattened centre table in the buffer the first line before the region filled. The
    scatter-max, the gather, the blend and the selection each write their own result buffer only, so the composed
    term is the definition's, the typed references of the selecting function being the plain ones. -/
theorem tail_cen (W : Valuation τ sig (Elt Ideal)) (x : FVec Ideal S16384x2048 .f32) (l : IVec S16384 32)
    (cen : FVec Ideal S1000x8x256 .f32)
    (h0 : W (Proc.devRef .tc main_arg0) = x) (h1 : W (Proc.devRef .tc main_arg1) = l)
    (h2 : W (Proc.devRef .tc main_v0) = Terms.cenFlat (F := Ideal) cen) :
    StableHlo.after (List.flatten [hostOps1, hostOps1_1, hostOps1_2]) W (Proc.devRef .tc main_v33)
      = Terms.kCen (F := Ideal) x l cen := by
  subst h0 h1
  simp only [Gen.hostOps1, Gen.hostOps1_1, Gen.hostOps1_2, List.flatten_cons, List.flatten_nil, List.append_nil,
    List.cons_append, List.nil_append]
  after_results_simp
  rw [h2]
  simp only [Terms.kCen, Terms.blend, Terms.xLast, Terms.gatherPos, Terms.lastIdxC, Terms.occurs, Terms.lastIdx,
    Terms.labNorm]
  simp only [StableHlo.TRef.toBuf, StableHlo.TRef.ofBuf, cast_eq]
  rfl

/-! ## What the lines after the region start from -/

variable (m : (ℓ : Loc nD τ sig) → Buf (Elt Ideal) ℓ)

/-- The first line before the region flattens the centre table into its own buffer, and neither later line before
    the region writes there. -/
theorem V_main_v0 (c : Dev nD) :
    V m c main_v0 = Terms.cenFlat (F := Ideal) (m ((c.tc : Thread nD τ).loc main_arg2)) := by
  unfold V V0
  simp only [Gen.hostOps0, List.flatten_cons, List.flatten_nil, List.append_nil, List.cons_append, List.nil_append]
  after_results
  rfl

/-- The loss at the end of the program: the region's result array is its fourth window's, which ends at the summed
    squared error of all tiles. -/
theorem end_loss (c : Dev nD) :
    Pipeline.afterTail₀ cfgs (dats (F := Ideal) m) 0 (V0 m) [hostOps1, hostOps1_1, hostOps1_2] c main_v5
      = Cert.Spec.lossOf (Cert.Spec.sqErrTiles (m ((c.tc : Thread nD τ).loc main_arg0))
          (Terms.lab2 (m ((c.tc : Thread nD τ).loc main_arg1)))
          (Terms.cenBf (F := Ideal) (m ((c.tc : Thread nD τ).loc main_arg2)))) := by
  unfold Pipeline.afterTail₀
  refine (tail_loss _).trans ?_
  have e : Pipeline.withArrays spec0 c (V0 m c) (fun w => (dats (F := Ideal) m 0 c).arrAt w cfg0.N)
        (Proc.devRef .tc main_v3)
      = fun _ => Cert.Spec.sqErrTiles (m ((c.tc : Thread nD τ).loc main_arg0))
          (Terms.lab2 (m ((c.tc : Thread nD τ).loc main_arg1)))
          (Terms.cenBf (F := Ideal) (m ((c.tc : Thread nD τ).loc main_arg2))) :=
    (Pipeline.withArrays_arr spec0 launch0.win.arr_inj c _ _ 3).trans (Body.final3 m c)
  exact (congrArg (Terms.kLoss (F := Ideal)) e).trans (kLoss_const _)

/-- The new centre table at the end of the program: the samples are the first window's array, an input, which the
    region leaves as it found it; the class words and the flattened centre table are no window's array. -/
theorem end_cen (c : Dev nD) :
    Pipeline.afterTail₀ cfgs (dats (F := Ideal) m) 0 (V0 m) [hostOps1, hostOps1_1, hostOps1_2] c main_v33
      = Terms.kCen (F := Ideal) (m ((c.tc : Thread nD τ).loc main_arg0)) (m ((c.tc : Thread nD τ).loc main_arg1))
          (m ((c.tc : Thread nD τ).loc main_arg2)) := by
  unfold Pipeline.afterTail₀
  refine tail_cen _ _ _ _ ?_ ?_ ?_
  · exact (Pipeline.withArrays_arr spec0 launch0.win.arr_inj c _ _ 0).trans
      (((dats (F := Ideal) m 0 c).arrAt_in 0 rfl _).trans ((A_eq m c 0).trans (V_main_arg0 m c)))
  · exact (Pipeline.withArrays_of_ne _ c (V0 m c) _ main_arg1
      (by exact (by decide : ∀ w, Pipeline.arrRef spec0 w ≠ main_arg1))).trans (V_main_arg1 m c)
  · exact (Pipeline.withArrays_of_ne _ c (V0 m c) _ main_v0
      (by exact (by decide : ∀ w, Pipeline.arrRef spec0 w ≠ main_v0))).trans (V_main_v0 m c)

/-! ## The run -/

/-- Every weakly fair execution of the kernel's program ends with the loss and the new centre table at these
    functions of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = Cert.Spec.lossOf (Cert.Spec.sqErrTiles (m ((c.tc : Thread nD τ).loc main_arg0))
              (Terms.lab2 (m ((c.tc : Thread nD τ).loc main_arg1)))
              (Terms.cenBf (F := Ideal) (m ((c.tc : Thread nD τ).loc main_arg2))))
      ∧ r.2.mem ((c.tc : Thread nD τ).loc main_v33)
          = Terms.kCen (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v5 (Pipeline.mem_restRefs_of main_v5 (by decide) (by decide))).trans (end_loss m c),
      ((h c).2 main_v33 (Pipeline.mem_restRefs_of main_v33 (by decide) (by decide))).trans (end_cen m c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans
        (W_main_arg1 m (dats (F := Ideal) m) c),
      ((h c).2 main_arg2 (Pipeline.mem_restRefs_of main_arg2 (by decide) (by decide))).trans
        (W_main_arg2 m (dats (F := Ideal) m) c)⟩) (run_main m ρ)

end Cert.KernelIdeal.Run

end
-- ==== Proof.KernelLoss.lean ====
/-
  The kernel's squared error, tile by tile with one-hot centre rows, is the total squared error.

  A row's one-hot product over the 1000 classes keeps exactly the centre row of the row's class (every other term is
  a zero times a centre entry); the flat coordinate d is head d / 256, coordinate d % 256; 32 tiles of 512 rows are
  the 16384 samples.
-/
import proofs.«429359_j54674933678414_1_alg».proof.Proof.Spec
import proofs.«429359_j54674933678414_1_alg».proof.Proof.Terms
import Idealize.ShloMosaic.Lib.Pipeline.Value
import Idealize.ShloMosaic.Lib.ValueLayout

noncomputable section

open scoped BigOperators

namespace Cert.KernelLoss

open Idealize.ShloMosaic Idealize.ShloMosaic.ValueIdx Cert.KernelIdeal

/-! ## The two operands of the region, read at an index -/

/-- The column of class words at row n is the word of sample n. -/
theorem lab2_apply (l : Cert.Spec.SLab.Idx → BitVec 32) (n : Fin 16384) :
    Terms.lab2 l (ix2 n (0 : Fin 1)) = l (ix1 n) := by
  unfold Terms.lab2
  exact broadcastInDim_apply _ Gen.bcast_S16384_S16384x1_0 l (ix2 n (0 : Fin 1)) (ix1 n) (fun a => match a with
    | ⟨0, _⟩ => by show n.val = if (16384 : Nat) = 1 then 0 else n.val; rw [if_neg (by decide)])

/-- The flat centre table at class k, flat coordinate 256 · h + e, is the centre of class k at head h, coordinate e:
    both sit at row-major position (8 k + h) · 256 + e = 2048 k + (256 h + e). -/
theorem cenBf_apply (cen : Cert.Spec.SCen.Idx → EReal) (k : Fin 1000) (h : Fin 8) (e : Fin 256) :
    Terms.cenBf (F := Ideal) cen (ix2 k (Cert.Spec.col h e)) = cen (ix3 k h e) := by
  unfold Terms.cenBf Terms.cenFlat
  rw [truncf_apply]
  exact shapeCast_apply cen Gen.shapeCasts_S1000x8x256_S1000x2048 (ix2 k (Cert.Spec.col h e)) (ix3 k h e) (by
    rw [Shape.rowMajor_val_two, Shape.rowMajor_val_three]
    have hk : k.val < 1000 := k.isLt
    have hh : h.val < 8 := h.isLt
    have he : e.val < 256 := e.isLt
    show (k.val * 8 + h.val) * 256 + e.val = k.val * 2048 + (256 * h.val + e.val)
    omega)

/-! ## The one-hot product keeps one row -/

/-- Of the 1000 one-hot weights of a class word below 1000 exactly the one at the word's own number is 1; the others
    are 0, and a zero times any extended real is zero. -/
theorem oh_sum (w : BitVec 32) (hw : w.toNat < 1000) (cb : Fin 1000 → EReal) :
    ∑ k : Fin 1000, Cert.Spec.oh w k * cb k = cb ⟨w.toNat, hw⟩ := by
  rw [Finset.sum_eq_single (⟨w.toNat, hw⟩ : Fin 1000)]
  · unfold Cert.Spec.oh
    rw [if_pos (by simp), one_mul]
  · intro k _ hk
    unfold Cert.Spec.oh
    rw [if_neg, zero_mul]
    intro hwk
    apply hk
    apply Fin.ext
    have hk2 : k.val < 2 ^ 32 := by have := k.isLt; omega
    show k.val = w.toNat
    rw [hwk, BitVec.toNat_ofNat, Nat.mod_eq_of_lt hk2]
  · intro hn
    exact absurd (Finset.mem_univ _) hn

/-- The one-hot product of sample n's class word with the flat centre table, at flat coordinate 256 · h + e, is the
    centre of the sample's class at head h, coordinate e. -/
theorem pick (l : Cert.Spec.SLab.Idx → BitVec 32) (cen : Cert.Spec.SCen.Idx → EReal) (hl : Cert.Spec.InRange l)
    (n : Fin 16384) (h : Fin 8) (e : Fin 256) :
    ∑ k : Fin 1000, Cert.Spec.oh (Terms.lab2 l (ix2 n (0 : Fin 1))) k
        * Terms.cenBf (F := Ideal) cen (ix2 k (Cert.Spec.col h e))
      = Cert.Spec.cenAt cen (Cert.Spec.cls l n) h e := by
  rw [lab2_apply]
  have hcb : ∀ k : Fin 1000, Terms.cenBf (F := Ideal) cen (ix2 k (Cert.Spec.col h e)) = cen (ix3 k h e) :=
    fun k => cenBf_apply cen k h e
  simp only [hcb]
  rw [oh_sum (l (ix1 n)) (hl n) (fun k => cen (ix3 k h e))]
  unfold Cert.Spec.cenAt Cert.Spec.cls
  rw [dif_pos (hl n)]

/-! ## Tiles of rows are the samples; heads of coordinates are the flat coordinates -/

/-- Tile t, row r ↦ sample 512 t + r is a bijection of the 32 × 512 pairs with the 16384 samples. -/
def rowEquiv : Fin 32 × Fin 512 ≃ Fin 16384 where
  toFun p := Cert.Spec.row p.1 p.2
  invFun n := (⟨n.val / 512, by have := n.isLt; omega⟩, ⟨n.val % 512, by omega⟩)
  left_inv p := by
    rcases p with ⟨t, r⟩
    have ht := t.isLt
    have hr := r.isLt
    refine Prod.ext (Fin.ext ?_) (Fin.ext ?_)
    · show (512 * t.val + r.val) / 512 = t.val
      omega
    · show (512 * t.val + r.val) % 512 = r.val
      omega
  right_inv n := by
    refine Fin.ext ?_
    show 512 * (n.val / 512) + n.val % 512 = n.val
    omega

/-- Head h, coordinate e ↦ flat coordinate 256 h + e is a bijection of the 8 × 256 pairs with the 2048 flat
    coordinates. -/
def colEquiv : Fin 8 × Fin 256 ≃ Fin 2048 where
  toFun p := Cert.Spec.col p.1 p.2
  invFun d := (⟨d.val / 256, by have := d.isLt; omega⟩, ⟨d.val % 256, by omega⟩)
  left_inv p := by
    rcases p with ⟨h, e⟩
    have hh := h.isLt
    have he := e.isLt
    refine Prod.ext (Fin.ext ?_) (Fin.ext ?_)
    · show (256 * h.val + e.val) / 256 = h.val
      omega
    · show (256 * h.val + e.val) % 256 = e.val
      omega
  right_inv d := by
    refine Fin.ext ?_
    show 256 * (d.val / 256) + d.val % 256 = d.val
    omega

/-- A sum over tiles and rows is the sum over samples. -/
theorem sum_rows {M : Type*} [AddCommMonoid M] (f : Fin 16384 → M) :
    ∑ t : Fin 32, ∑ r : Fin 512, f (Cert.Spec.row t r) = ∑ n : Fin 16384, f n := by
  rw [← Equiv.sum_comp rowEquiv f, Fintype.sum_prod_type]
  rfl

/-- A sum over heads and coordinates is the sum over flat coordinates. -/
theorem sum_cols {M : Type*} [AddCommMonoid M] (g : Fin 2048 → M) :
    ∑ h : Fin 8, ∑ e : Fin 256, g (Cert.Spec.col h e) = ∑ d : Fin 2048, g d := by
  rw [← Equiv.sum_comp colEquiv g, Fintype.sum_prod_type]
  rfl

/-! ## The statement -/

theorem kernel_sq (x : Cert.Spec.SX.Idx → EReal) (l : Cert.Spec.SLab.Idx → BitVec 32) (cen : Cert.Spec.SCen.Idx → EReal)
    (hl : Cert.Spec.InRange l) :
    Cert.Spec.sqErrTiles x (Terms.lab2 l) (Terms.cenBf (F := Ideal) cen) = Cert.Spec.sqErr x l cen := by
  unfold Cert.Spec.sqErrTiles Cert.Spec.sqErr
  refine Eq.trans ?_ (sum_rows _)
  refine Finset.sum_congr rfl fun t _ => Finset.sum_congr rfl fun r _ => ?_
  refine Eq.trans (sum_cols _).symm ?_
  refine Finset.sum_congr rfl fun h _ => Finset.sum_congr rfl fun e _ => ?_
  rw [pick l cen hl]

end Cert.KernelLoss

end
-- ==== Proof.LibFold.lean ====
/-
  A host scatter read at one element as a fold, and two folds in closed form.

  The host scatter is a left fold over all update positions in row-major order; at one element of the result only
  the updates landing there matter, in that order. A fold that keeps the update and drops the old value ends at the
  last update; a running signed maximum of increasing small numbers, started at −1, ends at the last number.
-/
import Idealize.ShloMosaic.PureOps.ShapeOps
import Idealize.ShloMosaic.PureOps.Dims
import Idealize.ShloMosaic.Lib.ValueIdx
import Mathlib.Data.List.Sort

noncomputable section

namespace Cert.LibFold

open Idealize.ShloMosaic Idealize.ShloMosaic.ValueIdx

/-- The scatter at element i: the fold of the combiner over the updates whose position lands on i, in row-major
    order of the update array, from the operand's element. -/
theorem scatter_apply {s si u : Shape} {α : Type} {w : Nat} (d : ScatterDims s si u) (f : α → α → α)
    (x : s.Idx → α) (idx : IVec si w) (upd : u.Idx → α) (i : s.Idx) :
    Host.scatter d f x idx upd i
      = ((List.finRange u.numel).filter (fun n => decide (d.resultIdx? (u.rowMajor.symm n) idx = some i))).foldl
          (fun a n => f a (upd (u.rowMajor.symm n))) (x i) := by
  unfold Host.scatter
  -- Each step either leaves the function alone or replaces its value at one element j by the combiner of the old
  -- value at j and the step's update; read at i, only the steps with j = i matter, in their order.
  generalize List.finRange u.numel = l
  induction l generalizing x with
  | nil => rfl
  | cons n l ih =>
    rw [List.foldl_cons, ih, List.filter_cons]
    cases hres : d.resultIdx? (u.rowMajor.symm n) idx with
    | none => simp
    | some j =>
      by_cases hji : j = i
      · subst hji; simp
      · have hij : ¬ (i = j) := fun h => hji h.symm
        simp [hji, hij]

/-- A fold that replaces the value by the update ends at the last update, or where it started. -/
theorem foldl_last {κ α : Type} (v : κ → α) (l : List κ) (a : α) :
    l.foldl (fun _ n => v n) a = match l.getLast? with | none => a | some n => v n := by
  induction l using List.reverseRecOn with
  | nil => rfl
  | append_singleton l n _ => simp [List.foldl_append, List.getLast?_concat]

/-- A number below 2³¹, as a 32-bit word, reads back as itself when the word is read signed. -/
theorem toInt_ofNat_small (n : Nat) (h : n < 2147483648) : (BitVec.ofNat 32 n).toInt = (n : Int) := by
  rw [BitVec.toInt_eq_toNat_cond]
  simp only [BitVec.toNat_ofNat]
  split <;> omega

/-- The signed maximum of two numbers below 2³¹ in increasing order is the second. -/
theorem maxsi_ofNat_lt (m n : Nat) (hn : n < 2147483648) (hmn : m < n) :
    IntOp.maxsi (BitVec.ofNat 32 m) (BitVec.ofNat 32 n) = BitVec.ofNat 32 n := by
  unfold IntOp.maxsi
  rw [if_neg]
  rw [BitVec.slt_eq_decide, toInt_ofNat_small n hn, toInt_ofNat_small m (by omega)]
  intro hh
  have := of_decide_eq_true hh
  omega

/-- The signed maximum of −1 and a number below 2³¹ is that number. -/
theorem maxsi_neg_one_ofNat (n : Nat) (hn : n < 2147483648) :
    IntOp.maxsi 4294967295#32 (BitVec.ofNat 32 n) = BitVec.ofNat 32 n := by
  unfold IntOp.maxsi
  rw [if_neg]
  rw [BitVec.slt_eq_decide, toInt_ofNat_small n hn]
  have : (4294967295#32).toInt = -1 := by decide
  rw [this]
  intro hh
  have := of_decide_eq_true hh
  omega

/-- The running signed maximum, from −1, of an increasing list of numbers below 2³¹ ends at the last one. -/
theorem foldl_maxsi_sorted {N : Nat} (hN : N ≤ 2147483648) (l : List (Fin N)) (hl : l.Pairwise (· < ·)) :
    l.foldl (fun a n => IntOp.maxsi a (BitVec.ofNat 32 n.val)) 4294967295#32
      = match l.getLast? with | none => 4294967295#32 | some n => BitVec.ofNat 32 n.val := by
  induction l using List.reverseRecOn with
  | nil => rfl
  | append_singleton l n ih =>
    rw [List.pairwise_append] at hl
    obtain ⟨hl1, -, hl2⟩ := hl
    rw [List.foldl_append, ih hl1, List.getLast?_concat]
    simp only [List.foldl_cons, List.foldl_nil]
    cases hlast : l.getLast? with
    | none => exact maxsi_neg_one_ofNat n.val (by omega)
    | some m =>
      have hm : m ∈ l := List.mem_of_getLast? hlast
      have hmn : m < n := hl2 m hm n (by simp)
      exact maxsi_ofNat_lt m.val n.val (by omega) hmn

/-- The positions satisfying P, in order, are the increasing image under g of the positions satisfying Q, when P
    holds exactly on the image of Q. -/
theorem filter_finRange_eq_map {N M : Nat} (g : Fin N → Fin M) (hg : StrictMono g) (P : Fin M → Bool) (Q : Fin N → Bool)
    (h : ∀ j, P j = true ↔ ∃ n, Q n = true ∧ g n = j) :
    (List.finRange M).filter P = ((List.finRange N).filter Q).map g := by
  have h1 : ((List.finRange M).filter P).Pairwise (· < ·) :=
    (List.sortedLT_finRange M).pairwise.filter P
  have h2 : (((List.finRange N).filter Q).map g).Pairwise (· < ·) :=
    ((List.sortedLT_finRange N).pairwise.filter Q).map g (fun _ _ hab => hg hab)
  refine h1.eq_of_mem_iff h2 (fun j => ?_)
  simp only [List.mem_filter, List.mem_finRange, true_and, List.mem_map]
  exact h j

end Cert.LibFold

end
-- ==== Proof.LibIdx.lean ====
/-
  Where a scatter's update lands and what a gather reads, for three layouts with an n × 1 column of position words
  (read signed): one number per position into a vector; one H × E slab per position into a C × H × E table;
  one H × E slab per position gathered from an R × H × E table (the position clipped into the table).
-/
import Idealize.ShloMosaic.PureOps.ShapeOps
import Idealize.ShloMosaic.PureOps.Dims
import Idealize.ShloMosaic.Lib.ValueIdx

noncomputable section

namespace Cert.LibIdx

open Idealize.ShloMosaic Idealize.ShloMosaic.ValueIdx

/-- An update lands on index k exactly when start plus window coordinate is k's coordinate on every axis. -/
theorem resultIdx?_eq_some_iff {s si u : Shape} (d : ScatterDims s si u) {w : Nat} (j : u.Idx) (idx : IVec si w)
    (k : s.Idx) :
    d.resultIdx? j idx = some k ↔ ∀ a, d.start j idx a + (d.window j a : ℤ) = ((k a).val : ℤ) := by
  unfold ScatterDims.resultIdx?
  constructor
  · intro hk a
    split at hk
    · rename_i hb
      have hka := congrFun (Option.some.inj hk) a
      have := hb a
      rw [← hka]
      simp only
      omega
    · exact absurd hk (by simp)
  · intro hk
    have hb : ∀ a, 0 ≤ d.start j idx a + d.window j a ∧ d.start j idx a + d.window j a < s.size a := by
      intro a
      have := (k a).isLt
      rw [hk a]
      omega
    rw [dif_pos hb]
    congr 1
    funext a
    refine Fin.ext ?_
    simp only
    rw [hk a]
    simp

/-- One number per position into a vector: update j lands on element c exactly when position word j reads c. -/
theorem resultIdx_vec {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : Fin n) (c : Fin C) :
    d.resultIdx? (ix1 j) idx = some (ix1 c) ↔ (idx (ix2 j (0 : Fin 1))).toInt = (c.val : ℤ) := by
  obtain ⟨uw, iw, sd, iv, wf⟩ := d
  simp only at h1 h2 h3 h4
  subst h1 h2 h3 h4
  have hstart : (ScatterDims.mk [] [0] [0] 1 wf).start (ix1 j) idx 0 = (idx (ix2 j (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hwin : (ScatterDims.mk [] [0] [0] 1 wf).window (ix1 j) 0 = 0 := by
    unfold ScatterDims.window
    rw [dif_neg]
    simp [ScatterDims.sKept, Shape.kept]
  rw [resultIdx?_eq_some_iff]
  constructor
  · intro hk
    have := hk 0
    rw [hstart, hwin] at this
    simpa using this.trans (show (((ix1 c 0).val : ℕ) : ℤ) = (c.val : ℤ) from rfl)
  · intro hk a
    obtain rfl : a = 0 := Subsingleton.elim _ _
    rw [hstart, hwin, hk]
    show ((c.val : ℕ) : ℤ) + ((0 : ℕ) : ℤ) = (c.val : ℤ)
    simp

/-- One H × E slab per position into a C × H × E table: update (j, h', e') lands on (c, h, e) exactly when position
    word j reads c and the slab coordinates agree. -/
theorem resultIdx_rows3 {C H E n : Nat} (d : ScatterDims ⟨3, ![C, H, E]⟩ ⟨2, ![n, 1]⟩ ⟨3, ![n, H, E]⟩)
    (h1 : d.updateWindowDims = [1, 2]) (h2 : d.insertedWindowDims = [0]) (h3 : d.scatterDimsToOperandDims = [0])
    (h4 : d.indexVectorDim = 1) (idx : IVec ⟨2, ![n, 1]⟩ 32) (j : Fin n) (h' : Fin H) (e' : Fin E)
    (c : Fin C) (h : Fin H) (e : Fin E) :
    d.resultIdx? (ix3 j h' e') idx = some (ix3 c h e)
      ↔ ((idx (ix2 j (0 : Fin 1))).toInt = (c.val : ℤ) ∧ h' = h ∧ e' = e) := by
  obtain ⟨uw, iw, sd, iv, wf⟩ := d
  simp only at h1 h2 h3 h4
  subst h1 h2 h3 h4
  have hstart0 : (ScatterDims.mk [1, 2] [0] [0] 1 wf).start (ix3 j h' e') idx 0 = (idx (ix2 j (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hstart1 : (ScatterDims.mk [1, 2] [0] [0] 1 wf).start (ix3 j h' e') idx 1 = 0 := by
    unfold ScatterDims.start
    rw [dif_neg (show (1 : Fin 3) ∉ [(0 : Fin 3)] by decide)]
  have hstart2 : (ScatterDims.mk [1, 2] [0] [0] 1 wf).start (ix3 j h' e') idx 2 = 0 := by
    unfold ScatterDims.start
    rw [dif_neg (show (2 : Fin 3) ∉ [(0 : Fin 3)] by decide)]
  have hwin0 : (ScatterDims.mk [1, 2] [0] [0] 1 wf).window (ix3 j h' e') 0 = 0 := by
    unfold ScatterDims.window
    rw [dif_neg (by simp [ScatterDims.sKept, Shape.kept])]
  have hwin1 : (ScatterDims.mk [1, 2] [0] [0] 1 wf).window (ix3 j h' e') 1 = h'.val := by
    unfold ScatterDims.window
    rw [dif_pos (by simp [ScatterDims.sKept, Shape.kept])]
    rfl
  have hwin2 : (ScatterDims.mk [1, 2] [0] [0] 1 wf).window (ix3 j h' e') 2 = e'.val := by
    unfold ScatterDims.window
    rw [dif_pos (by simp [ScatterDims.sKept, Shape.kept])]
    rfl
  rw [resultIdx?_eq_some_iff]
  constructor
  · intro hk
    have k0 := hk 0
    have k1 := hk 1
    have k2 := hk 2
    rw [hstart0, hwin0] at k0
    rw [hstart1, hwin1] at k1
    rw [hstart2, hwin2] at k2
    refine ⟨?_, Fin.ext ?_, Fin.ext ?_⟩
    · simpa using k0.trans (show (((ix3 c h e 0).val : ℕ) : ℤ) = (c.val : ℤ) from rfl)
    · have := k1.trans (show (((ix3 c h e 1).val : ℕ) : ℤ) = (h.val : ℤ) from rfl)
      omega
    · have := k2.trans (show (((ix3 c h e 2).val : ℕ) : ℤ) = (e.val : ℤ) from rfl)
      omega
  · rintro ⟨hk, rfl, rfl⟩ a
    match a with
    | ⟨0, _⟩ =>
      show (ScatterDims.mk [1, 2] [0] [0] 1 wf).start (ix3 j h' e') idx 0 + (((ScatterDims.mk [1, 2] [0] [0] 1 wf).window (ix3 j h' e') 0 : ℕ) : ℤ) = (c.val : ℤ)
      rw [hstart0, hwin0, hk]; simp
    | ⟨1, _⟩ =>
      show (ScatterDims.mk [1, 2] [0] [0] 1 wf).start (ix3 j h' e') idx 1 + (((ScatterDims.mk [1, 2] [0] [0] 1 wf).window (ix3 j h' e') 1 : ℕ) : ℤ) = (h'.val : ℤ)
      rw [hstart1, hwin1]; simp
    | ⟨2, _⟩ =>
      show (ScatterDims.mk [1, 2] [0] [0] 1 wf).start (ix3 j h' e') idx 2 + (((ScatterDims.mk [1, 2] [0] [0] 1 wf).window (ix3 j h' e') 2 : ℕ) : ℤ) = (e'.val : ℤ)
      rw [hstart2, hwin2]; simp

/-- One H × E slab per position gathered from an R × H × E table: result (n, h, e) is the table at the clipped
    position of word n (a negative word reads slab 0, one past the end the last slab) and (h, e). -/
theorem gather_rows3_apply {α : Type} {R H E N : Nat} (d : GatherDims ⟨3, ![R, H, E]⟩ ⟨2, ![N, 1]⟩ ⟨3, ![N, H, E]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (x : (⟨3, ![R, H, E]⟩ : Shape).Idx → α) (idx : IVec ⟨2, ![N, 1]⟩ 32) (n : Fin N) (h : Fin H) (e : Fin E)
    (hR : 0 < R) :
    Host.gather d x idx (ix3 n h e)
      = x (ix3 (⟨min (idx (ix2 n (0 : Fin 1))).toInt.toNat (R - 1), by omega⟩ : Fin R) h e) := by
  obtain ⟨od, cd, ob, sb, sm, iv, ss, wf⟩ := d
  simp only at h1 h2 h3 h4 h5 h6
  subst h1 h2 h3 h4 h5 h6
  generalize hD : GatherDims.mk [1, 2] [0] [] [] [0] 1 ss wf = D
  have e2 : D.collapsedSliceDims = [0] := by rw [← hD]
  have e3 : D.operandBatchingDims = [] := by rw [← hD]
  have e5 : D.startIndexMap = [0] := by rw [← hD]
  have nb : ∀ a, a ∉ D.operandBatchingDims := by intro a; rw [e3]; exact List.not_mem_nil
  unfold Host.gather
  congr 1
  funext a
  refine Fin.ext ?_
  match a with
  | ⟨0, _⟩ =>
    show D.start (ix3 n h e) idx 0 + D.batchCoord (ix3 n h e) 0 + D.offCoord (ix3 n h e) 0
      = min (idx (ix2 n (0 : Fin 1))).toInt.toNat (R - 1)
    have hc : (0 : Fin 3) ∈ D.collapsedSliceDims := by rw [e2]; exact List.mem_singleton.mpr rfl
    rw [D.batchCoord_eq_zero _ _ (nb _), D.offCoord_eq_zero _ _ (fun hk => ((D.mem_sKept _).mp hk).1 hc)]
    simp only [Nat.add_zero]
    have hm : (0 : Fin 3) ∈ D.startIndexMap := by rw [e5]; exact List.mem_singleton.mpr rfl
    unfold GatherDims.start
    rw [dif_pos hm, D.slice_collapsed _ hc]
    subst hD
    have hsi : (GatherDims.mk [1, 2] [0] [] [] [0] 1 ss wf).siIdx (ix3 n h e)
        ⟨List.idxOf (0 : Fin 3) (GatherDims.mk [1, 2] [0] [] [] [0] 1 ss wf).startIndexMap,
          List.idxOf_lt_length_iff.2 hm⟩ = ix2 n (0 : Fin 1) := by
      funext b; refine Fin.ext ?_
      match b with
      | ⟨0, _⟩ => rfl
      | ⟨1, _⟩ => rfl
    rw [hsi]
    rfl
  | ⟨1, _⟩ =>
    show D.start (ix3 n h e) idx 1 + D.batchCoord (ix3 n h e) 1 + D.offCoord (ix3 n h e) 1 = h.val
    have hm : (1 : Fin 3) ∉ D.startIndexMap := by
      rw [e5]; exact (show (1 : Fin 3) ∉ [(0 : Fin 3)] by decide)
    have hk : (1 : Fin 3) ∈ D.sKept := by
      rw [D.mem_sKept, e2, e3]; exact ⟨(show (1 : Fin 3) ∉ [(0 : Fin 3)] by decide), List.not_mem_nil⟩
    rw [D.batchCoord_eq_zero _ _ (nb _)]
    unfold GatherDims.start GatherDims.offCoord
    rw [dif_neg hm, dif_pos hk]
    subst hD
    simp only [Nat.add_zero, Nat.zero_add]
    rfl
  | ⟨2, _⟩ =>
    show D.start (ix3 n h e) idx 2 + D.batchCoord (ix3 n h e) 2 + D.offCoord (ix3 n h e) 2 = e.val
    have hm : (2 : Fin 3) ∉ D.startIndexMap := by
      rw [e5]; exact (show (2 : Fin 3) ∉ [(0 : Fin 3)] by decide)
    have hk : (2 : Fin 3) ∈ D.sKept := by
      rw [D.mem_sKept, e2, e3]; exact ⟨(show (2 : Fin 3) ∉ [(0 : Fin 3)] by decide), List.not_mem_nil⟩
    rw [D.batchCoord_eq_zero _ _ (nb _)]
    unfold GatherDims.start GatherDims.offCoord
    rw [dif_neg hm, dif_pos hk]
    subst hD
    simp only [Nat.add_zero, Nat.zero_add]
    rfl

end Cert.LibIdx

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.KernelCenters.lean ====
/-
  The kernel's new centre table is the specified one.

  The scatter-max of the sample numbers leaves, per class, its last sample's number (−1 for a class no sample
  carries); the row gathered at that number is the last sample's row; the select keeps the old centre exactly for
  the classes that do not occur.
-/
import proofs.«429359_j54674933678414_1_alg».proof.Proof.Spec
import proofs.«429359_j54674933678414_1_alg».proof.Proof.Terms
import proofs.«429359_j54674933678414_1_alg».proof.Proof.LibFold
import proofs.«429359_j54674933678414_1_alg».proof.Proof.LibIdx
import proofs.«429359_j54674933678414_1_alg».proof.Proof.LibGatherRows
import Idealize.ShloMosaic.Lib.Pipeline.Value
import Idealize.ShloMosaic.Lib.ValueLayout
import Idealize.ShloMosaic.Lib.IdealHost
import Idealize.ShloMosaic.Lib.StableHlo.Predicate

noncomputable section

namespace Cert.KernelCenters

open Idealize.ShloMosaic Idealize.ShloMosaic.ValueIdx Cert.KernelIdeal

/-- A word below 2³¹ is not negative. -/
theorem slt_zero_of_small (w : BitVec 32) (h : w.toNat < 2 ^ 31) : IntOp.cmpi .slt w 0#32 = 0#1 := by
  refine eq_zero_of_ne_one fun h1 => ?_
  have := (StableHlo.Predicate.slt_iff_toNat h (by decide)).mp h1
  simp at this

/-- Under the range hypothesis the wrapped class word is the class word. -/
theorem labNorm_apply (l : Cert.Spec.SLab.Idx → BitVec 32) (hl : Cert.Spec.InRange l) (n : Fin 16384) :
    Terms.labNorm l (ix2 n (0 : Fin 1)) = l (ix1 n) := by
  unfold Terms.labNorm
  rw [broadcastInDim_apply _ _ _ _ (ix1 n) (fun a => by
    match a with
    | ⟨0, _⟩ => rfl)]
  rw [select_apply]
  show Scalar.select (IntOp.cmpi .slt (l (ix1 n)) 0#32) _ _ = _
  rw [slt_zero_of_small _ (by have := hl n; omega), select_zero]

/-- Sample number n as a row-major position of the rank-1 update array. -/
def posOf (n : Fin 16384) : Fin S16384.numel := S16384.rowMajor (ix1 n)

theorem posOf_strictMono : StrictMono posOf := by
  intro a b hab
  show (S16384.rowMajor (ix1 a)).val < (S16384.rowMajor (ix1 b)).val
  rw [Shape.rowMajor_val_one, Shape.rowMajor_val_one]
  exact hab

theorem symm_posOf (n : Fin 16384) : S16384.rowMajor.symm (posOf n) = ix1 n :=
  Equiv.symm_apply_apply _ _

/-- Under the range hypothesis a class word read signed is the class number. -/
theorem toInt_eq_iff_cls (l : Cert.Spec.SLab.Idx → BitVec 32) (hl : Cert.Spec.InRange l) (n : Fin 16384) (c : Fin 1000) :
    (l (ix1 n)).toInt = (c.val : ℤ) ↔ Cert.Spec.cls l n = c.val := by
  rw [StableHlo.Predicate.toInt_eq_toNat_of_lt (by have := hl n; omega)]
  unfold Cert.Spec.cls
  exact Nat.cast_inj

/-- Per class, the scatter-max of the sample numbers is the last sample's number, −1 when no sample carries it. -/
theorem lastIdx_apply (l : Cert.Spec.SLab.Idx → BitVec 32) (hl : Cert.Spec.InRange l) (c : Fin 1000) :
    Terms.lastIdx l (ix1 c)
      = match Cert.Spec.lastOcc l c with | none => 4294967295#32 | some n => BitVec.ofNat 32 n.val := by
  unfold Terms.lastIdx Cert.Spec.lastOcc
  rw [LibFold.scatter_apply]
  have hfilt : ∀ j : Fin S16384.numel,
      decide (scatter_S1000_S16384x1_S16384_n_0_0_1.resultIdx? (S16384.rowMajor.symm j) (Terms.labNorm l) = some (ix1 c)) = true
        ↔ ∃ n, decide (Cert.Spec.cls l n = c.val) = true ∧ posOf n = j := by
    intro j
    obtain ⟨n, hj⟩ : ∃ n : Fin 16384, S16384.rowMajor.symm j = ix1 n := ⟨_, eq_ix1 _⟩
    have hpos : posOf n = j := by
      unfold posOf
      rw [← hj]
      exact Equiv.apply_symm_apply _ _
    rw [hj, decide_eq_true_iff, LibIdx.resultIdx_vec _ rfl rfl rfl rfl, labNorm_apply l hl, toInt_eq_iff_cls l hl]
    constructor
    · intro h
      exact ⟨n, decide_eq_true h, hpos⟩
    · rintro ⟨m, hm, hmj⟩
      have hmn : m = n := posOf_strictMono.injective (hmj.trans hpos.symm)
      subst hmn
      exact of_decide_eq_true hm
  rw [LibFold.filter_finRange_eq_map posOf posOf_strictMono _ (fun n => decide (Cert.Spec.cls l n = c.val)) hfilt]
  rw [List.foldl_map]
  have hfun : (fun (a : BitVec 32) (n : Fin 16384) => IntOp.maxsi a (iotaInDim S16384 32 0 (S16384.rowMajor.symm (posOf n))))
      = fun a n => IntOp.maxsi a (BitVec.ofNat 32 n.val) := by
    funext a n
    rw [symm_posOf]
    rfl
  rw [hfun]
  show List.foldl _ 4294967295#32 _ = _
  rw [LibFold.foldl_maxsi_sorted (N := 16384) (by decide) _ (List.Pairwise.filter _ (List.pairwise_lt_finRange _))]
  generalize (List.filter (fun n => decide (Cert.Spec.cls l n = c.val)) (List.finRange 16384)).getLast? = o
  cases o <;> rfl

theorem occurs_eq (l : Cert.Spec.SLab.Idx → BitVec 32) (c : Fin 1000) :
    Terms.occurs l (ix1 c) = IntOp.cmpi .sge (Terms.lastIdx l (ix1 c)) 0#32 := rfl

theorem lastIdxC_eq (l : Cert.Spec.SLab.Idx → BitVec 32) (c : Fin 1000) :
    Terms.lastIdxC l (ix1 c) = IntOp.maxsi (Terms.lastIdx l (ix1 c)) 0#32 := rfl

theorem toNat_ofNat_small (n : Fin 16384) : (BitVec.ofNat 32 n.val).toNat = n.val := by
  rw [BitVec.toNat_ofNat]
  exact Nat.mod_eq_of_lt (by have := n.isLt; omega)

/-- A sample number is not negative as a word. -/
theorem sge_zero_ofNat (n : Fin 16384) : IntOp.cmpi .sge (BitVec.ofNat 32 n.val) 0#32 = 1#1 :=
  (StableHlo.Predicate.sge_iff_toNat (by rw [toNat_ofNat_small]; have := n.isLt; omega) (by decide)).mpr (by simp)

/-- Raising a sample number to at least 0 leaves it. -/
theorem maxsi_zero_ofNat (n : Fin 16384) : IntOp.maxsi (BitVec.ofNat 32 n.val) 0#32 = BitVec.ofNat 32 n.val := by
  unfold IntOp.maxsi
  split
  · rfl
  · next h =>
    have h0 : ¬ (0 < n.val) := fun hpos =>
      h ((StableHlo.Predicate.ofBool_eq_one_iff _).mp
        ((StableHlo.Predicate.slt_ofNat_iff 0 n.val (by decide) (by have := n.isLt; omega)).mpr hpos))
    have : n.val = 0 := by omega
    rw [this]

/-- The gather position of a class whose last sample is n is n itself. -/
theorem gatherPos_some (l : Cert.Spec.SLab.Idx → BitVec 32) (c : Fin 1000) (n : Fin 16384)
    (h : Terms.lastIdx l (ix1 c) = BitVec.ofNat 32 n.val) :
    Terms.gatherPos l (ix2 c (0 : Fin 1)) = BitVec.ofNat 32 n.val := by
  unfold Terms.gatherPos
  rw [broadcastInDim_apply _ _ _ _ (ix1 c) (fun a => by
    match a with
    | ⟨0, _⟩ => rfl)]
  rw [select_apply]
  show Scalar.select (IntOp.cmpi .slt (Terms.lastIdxC l (ix1 c)) 0#32) _ (Terms.lastIdxC l (ix1 c)) = _
  rw [lastIdxC_eq, h, maxsi_zero_ofNat,
    slt_zero_of_small _ (by rw [toNat_ofNat_small]; have := n.isLt; omega), select_zero]

/-- A sample number read signed and clipped into the sample table is itself. -/
theorem clip_ofNat (g : BitVec 32) (n : Fin 16384) (hg : g = BitVec.ofNat 32 n.val) :
    min g.toInt.toNat (16384 - 1) = n.val := by
  subst hg
  have h1 := StableHlo.Predicate.toInt_ofNat_small n.val (by have := n.isLt; omega)
  have h2 := n.isLt
  omega

/-- The row gathered for a class whose last sample is n is sample n's row. -/
theorem xLast_some (x : Cert.Spec.SX.Idx → EReal) (l : Cert.Spec.SLab.Idx → BitVec 32) (c : Fin 1000) (n : Fin 16384)
    (d : Fin 2048) (h : Terms.lastIdx l (ix1 c) = BitVec.ofNat 32 n.val) :
    Terms.xLast (F := Ideal) x l (ix2 c d) = x (ix2 n d) := by
  unfold Terms.xLast
  refine (LibGatherRows.gather_rows_apply (N := 16384) (D := 2048) (n := 1000) (w := 32)
    gather_S16384x2048_S1000x1_S1000x2048_1_0_n_n_0_1_12048 rfl rfl rfl rfl rfl rfl x (Terms.gatherPos l) c d (Nat.zero_lt_succ 16383)).trans ?_
  refine congrArg x (congrArg (fun m => ix2 m d) (Fin.ext ?_))
  exact clip_ofNat _ n (gatherPos_some l c n h)

/-- The flat table at (c, 256·h + e) is the table at (c, h, e). -/
theorem cenFlat_apply (cen : Cert.Spec.SCen.Idx → EReal) (c : Fin 1000) (h : Fin 8) (e : Fin 256) :
    Terms.cenFlat (F := Ideal) cen (ix2 c (Cert.Spec.col h e)) = cen (ix3 c h e) := by
  unfold Terms.cenFlat
  refine shapeCast_apply _ _ _ (ix3 c h e) ?_
  rw [Shape.rowMajor_val_three, Shape.rowMajor_val_two]
  show (c.val * 8 + h.val) * 256 + e.val = c.val * 2048 + (256 * h.val + e.val)
  omega

/-- The per-class flag spread over the 1000 × 2048 table reads the class's flag. -/
theorem occursB_apply (l : Cert.Spec.SLab.Idx → BitVec 32) (c : Fin 1000) (d : Fin 2048) :
    broadcastInDim S1000x2048 ![0, 1] Gen.bcast_S1000x1_S1000x2048_0_1
        (broadcastInDim S1000x1 ![0] Gen.bcast_S1000_S1000x1_0 (Terms.occurs l)) (ix2 c d)
      = Terms.occurs l (ix1 c) := by
  rw [broadcastInDim_apply _ _ _ _ (ix2 c (0 : Fin 1)) (fun a => by
    match a with
    | ⟨0, _⟩ => rfl
    | ⟨1, _⟩ => rfl)]
  rw [broadcastInDim_apply _ _ _ _ (ix1 c) (fun a => by
    match a with
    | ⟨0, _⟩ => rfl)]

/-- The kernel's new centre table at (c, h, e). -/
theorem kCen_apply (x : Cert.Spec.SX.Idx → EReal) (l : Cert.Spec.SLab.Idx → BitVec 32) (cen : Cert.Spec.SCen.Idx → EReal)
    (hl : Cert.Spec.InRange l) (c : Fin 1000) (h : Fin 8) (e : Fin 256) :
    Terms.kCen (F := Ideal) x l cen (ix3 c h e) = Cert.Spec.newCenAt x l cen c h e := by
  unfold Terms.kCen
  rw [shapeCast_apply _ _ (ix3 c h e) (ix2 c (Cert.Spec.col h e)) (by
    rw [Shape.rowMajor_val_three, Shape.rowMajor_val_two]
    show c.val * 2048 + (256 * h.val + e.val) = (c.val * 8 + h.val) * 256 + e.val
    omega)]
  rw [select_apply, occursB_apply, cenFlat_apply]
  unfold Terms.blend
  rw [addf_apply, mulf_apply, mulf_apply, cenFlat_apply, broadcastInDim_scalar_apply, broadcastInDim_scalar_apply,
    constant_apply, constant_apply, occurs_eq]
  have hL := lastIdx_apply l hl c
  unfold Cert.Spec.newCenAt
  generalize Cert.Spec.lastOcc l c = o at hL ⊢
  cases o with
  | none =>
    have hL' : Terms.lastIdx l (ix1 c) = 4294967295#32 := hL
    rw [hL', show IntOp.cmpi .sge 4294967295#32 0#32 = 0#1 from by decide, select_zero]
  | some n =>
    have hL' : Terms.lastIdx l (ix1 c) = BitVec.ofNat 32 n.val := hL
    rw [hL', sge_zero_ofNat, select_one, xLast_some x l c n _ hL']

theorem kernel_centers (x : Cert.Spec.SX.Idx → EReal) (l : Cert.Spec.SLab.Idx → BitVec 32) (cen : Cert.Spec.SCen.Idx → EReal)
    (hl : Cert.Spec.InRange l) :
    Terms.kCen (F := Ideal) x l cen = Cert.Spec.newCen x l cen := by
  funext i
  obtain ⟨c, h, e, rfl⟩ : ∃ (c : Fin 1000) (h : Fin 8) (e : Fin 256), i = ix3 c h e := ⟨_, _, _, eq_ix3 i⟩
  exact kCen_apply x l cen hl c h e

end Cert.KernelCenters

end
-- ==== Proof.LossAlgebra.lean ====
/-
  The reference's way of averaging is one division of the whole sum.

  The reference averages the squares over the 256 coordinates of each head, sums the 8 heads, and averages over the
  16384 samples, each sum started from the float zero. Over real numbers (every entry finite) dividing each head's
  sum by 256 and the total by 16384 is dividing the sum over samples, heads and coordinates by 256 · 16384 = 4194304.
-/
import proofs.«429359_j54674933678414_1_alg».proof.Proof.Spec

noncomputable section

open scoped BigOperators

namespace Cert.LossAlgebra

open Idealize.ShloMosaic Idealize.ShloMosaic.ValueIdx

/-- The reference's loss as it computes it: three nested sums from the float zero, the inner one divided by the
    float 256, the outer one by the float 16384. -/
def refLossForm (x : Cert.Spec.SX.Idx → EReal) (l : Cert.Spec.SLab.Idx → BitVec 32) (cen : Cert.Spec.SCen.Idx → EReal) : EReal :=
  Ideal.div
    (Ideal.ofBits .f32 0x00000000#32 + ∑ n : Fin 16384,
      (Ideal.ofBits .f32 0x00000000#32 + ∑ h : Fin 8,
        Ideal.div
          (Ideal.ofBits .f32 0x00000000#32 + ∑ e : Fin 256,
            (x (ix2 n (Cert.Spec.col h e)) - Cert.Spec.cenAt cen (Cert.Spec.cls l n) h e)
              * (x (ix2 n (Cert.Spec.col h e)) - Cert.Spec.cenAt cen (Cert.Spec.cls l n) h e))
          (Ideal.ofBits .f32 0x43800000#32)))
    (Ideal.ofBits .f32 0x46800000#32)

/-- The float word of zero denotes the real 0. -/
theorem ofBits_zero : Ideal.ofBits .f32 0x00000000#32 = 0 := by
  simp [Ideal.ofBits, Ideal.ieee]

/-- The float word 0x43800000 denotes the real 256 = 2⁸. -/
theorem ofBits_256 : Ideal.ofBits .f32 0x43800000#32 = ((256 : ℝ) : EReal) := by
  simp [Ideal.ofBits, Ideal.ieee, -EReal.coe_mul]; norm_num

/-- The float word 0x46800000 denotes the real 16384 = 2¹⁴. -/
theorem ofBits_16384 : Ideal.ofBits .f32 0x46800000#32 = ((16384 : ℝ) : EReal) := by
  simp [Ideal.ofBits, Ideal.ieee, -EReal.coe_mul]; norm_num

/-- The float word 0x4A800000 denotes the real 4194304 = 2²². -/
theorem ofBits_4194304 : Ideal.ofBits .f32 0x4A800000#32 = ((4194304 : ℝ) : EReal) := by
  simp [Ideal.ofBits, Ideal.ieee, -EReal.coe_mul]; norm_num

/-- A finite sum of real numbers, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: averaging each head's 256 squares, summing, and averaging over the 16384 samples is dividing
    the triple sum by 256 · 16384 = 4194304. -/
theorem real_average (t : Fin 16384 → Fin 8 → Fin 256 → ℝ) :
    (∑ n : Fin 16384, ∑ h : Fin 8, (∑ e : Fin 256, t n h e) * (1 / 256 : ℝ)) * (1 / 16384 : ℝ)
      = (∑ n : Fin 16384, ∑ h : Fin 8, ∑ e : Fin 256, t n h e) * (1 / 4194304 : ℝ) := by
  simp only [← Finset.sum_mul]
  rw [mul_assoc]
  norm_num

theorem loss_algebra (x : Cert.Spec.SX.Idx → EReal) (l : Cert.Spec.SLab.Idx → BitVec 32) (cen : Cert.Spec.SCen.Idx → EReal)
    (hx : Cert.Spec.Finite x) (hc : Cert.Spec.Finite cen) (hl : Cert.Spec.InRange l) :
    refLossForm x l cen = Ideal.div (Cert.Spec.sqErr x l cen) (Ideal.ofBits .f32 0x4A800000#32) := by
  -- every entry of x and of the centre table is a real number: name the real arrays
  have hx' : ∀ i, ∃ r : ℝ, x i = (r : EReal) := hx
  have hc' : ∀ i, ∃ r : ℝ, cen i = (r : EReal) := hc
  choose xr hxr using hx'
  choose cr hcr using hc'
  -- so every square term is the real square of a difference of reals
  have hterm : ∀ (n : Fin 16384) (h : Fin 8) (e : Fin 256),
      (x (ix2 n (Cert.Spec.col h e)) - Cert.Spec.cenAt cen (Cert.Spec.cls l n) h e)
          * (x (ix2 n (Cert.Spec.col h e)) - Cert.Spec.cenAt cen (Cert.Spec.cls l n) h e)
        = (((xr (ix2 n (Cert.Spec.col h e)) - cr (ix3 (⟨Cert.Spec.cls l n, hl n⟩ : Fin 1000) h e))
            * (xr (ix2 n (Cert.Spec.col h e)) - cr (ix3 (⟨Cert.Spec.cls l n, hl n⟩ : Fin 1000) h e)) : ℝ) : EReal) := by
    intro n h e
    have hk : Cert.Spec.cls l n < 1000 := hl n
    rw [Cert.Spec.cenAt, dif_pos hk, hxr, hcr, ← EReal.coe_sub, ← EReal.coe_mul]
  unfold refLossForm Cert.Spec.sqErr
  simp only [hterm, ofBits_zero, ofBits_256, ofBits_16384, ofBits_4194304, zero_add, coe_sum,
    Ideal.div_coe (by norm_num : (256 : ℝ) ≠ 0), Ideal.div_coe (by norm_num : (16384 : ℝ) ≠ 0),
    Ideal.div_coe (by norm_num : (4194304 : ℝ) ≠ 0), ← EReal.coe_mul]
  rw [real_average]

end Cert.LossAlgebra

end
-- ==== Proof.RefLoss.lean ====
/-
  The reference's loss is the total squared error divided by 4194304.

  The reference gathers each sample's centre slab, squares the differences, averages over the 256 coordinates of a
  head, sums the 8 heads and averages over the 16384 samples. With every entry a real number the two divisions
  (by 256 inside, by 16384 outside) are one division by 4194304 of the whole sum.
-/
import proofs.«429359_j54674933678414_1_alg».proof.Proof.Spec
import proofs.«429359_j54674933678414_1_alg».proof.Proof.LibIdx
import proofs.«429359_j54674933678414_1_alg».proof.Proof.LossAlgebra
import proofs.«429359_j54674933678414_1_alg».proof.Proof.Gen.ReferenceIdeal.Read
import Idealize.ShloMosaic.Lib.StableHlo.Predicate

noncomputable section

open scoped BigOperators

namespace Cert.RefLoss

open Idealize.ShloMosaic Idealize.ShloMosaic.ValueIdx Cert.ReferenceIdeal Cert.ReferenceIdeal.Gen

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- A class word below 1000 is not negative, so the reference's wrap-around (add 1000 to a negative word) leaves it
    as it is. -/
theorem wrap_word (w : BitVec 32) (hw : w.toNat < 1000) :
    Scalar.select (IntOp.cmpi .slt w 0#32) (IntOp.addi w 1000#32) w = w := by
  have h0 : ¬ IntOp.cmpi .slt w 0#32 = 1#1 := by
    rw [StableHlo.Predicate.slt_iff_toNat (by omega) (by decide)]
    simp
  rw [eq_zero_of_ne_one h0, select_zero]

/-- The position word the gather reads for sample n is the sample's class word. -/
theorem wrapped_eq (l : Cert.Spec.SLab.Idx → BitVec 32) (hl : Cert.Spec.InRange l) (n : Fin 16384) :
    Read.val_main_v5 (F := Ideal) l (ix2 n (0 : Fin 1)) = l (ix1 n) := by
  rw [Read.val_main_v5_apply]
  have hi : Read.idx_main_v5 (ix2 n (0 : Fin 1)) = ix1 n := by
    funext a; match a with | ⟨0, _⟩ => rfl
  rw [hi, Read.val_main_v4_apply, Read.val_main_v1_apply, Read.val_main_v3_apply, Read.val_main_v0_apply,
    Read.val_main_v2_apply, Read.val_main_c_apply, Read.val_main_c_0_apply]
  exact wrap_word _ (hl n)

/-- The gathered slab of sample n is the centre of the sample's class. -/
theorem gathered (l : Cert.Spec.SLab.Idx → BitVec 32) (cen : Cert.Spec.SCen.Idx → EReal) (hl : Cert.Spec.InRange l)
    (n : Fin 16384) (h : Fin 8) (e : Fin 256) :
    Read.val_main_v6 (F := Ideal) l cen (ix3 n h e) = Cert.Spec.cenAt cen (Cert.Spec.cls l n) h e := by
  unfold Read.val_main_v6
  rw [Cert.LibIdx.gather_rows3_apply gather_S1000x8x256_S16384x1_S16384x8x256_12_0_n_n_0_1_18256 rfl rfl rfl rfl rfl rfl
    cen (Read.val_main_v5 (F := Ideal) l) n h e (by decide)]
  have hk : Cert.Spec.cls l n < 1000 := hl n
  unfold Cert.Spec.cenAt
  rw [dif_pos hk]
  refine congrArg cen (congrArg (fun k => ix3 k h e) (Fin.ext ?_))
  show min (Read.val_main_v5 (F := Ideal) l (ix2 n (0 : Fin 1))).toInt.toNat (1000 - 1) = (l (ix1 n)).toNat
  have hk' : (l (ix1 n)).toNat < 1000 := hl n
  rw [wrapped_eq l hl n, StableHlo.Predicate.toInt_eq_toNat_of_lt (by omega), Int.toNat_natCast]
  omega

/-- The reshaped sample array at (n, h, e) is x at row n, flat coordinate 256·h + e. -/
theorem reshaped (x : Cert.Spec.SX.Idx → EReal) (n : Fin 16384) (h : Fin 8) (e : Fin 256) :
    Read.val_main_v7 (F := Ideal) x (ix3 n h e) = x (ix2 n (Cert.Spec.col h e)) := by
  rw [Read.val_main_v7_apply]
  refine congrArg x ?_
  have hh := h.isLt
  have he := e.isLt
  funext a
  match a with
  | ⟨0, _⟩ =>
    refine Fin.ext ?_
    show ((n.val * 8 + h.val) * 256 + e.val) / 2048 = n.val
    omega
  | ⟨1, _⟩ =>
    refine Fin.ext ?_
    show ((n.val * 8 + h.val) * 256 + e.val) % 2048 = 256 * h.val + e.val
    omega

/-- One squared difference of the reference is the specified one. -/
theorem squared (x : Cert.Spec.SX.Idx → EReal) (l : Cert.Spec.SLab.Idx → BitVec 32) (cen : Cert.Spec.SCen.Idx → EReal)
    (hl : Cert.Spec.InRange l) (n : Fin 16384) (h : Fin 8) (e : Fin 256) :
    Read.val_main_v9 (F := Ideal) x l cen (ix3 n h e)
      = (x (ix2 n (Cert.Spec.col h e)) - Cert.Spec.cenAt cen (Cert.Spec.cls l n) h e)
        * (x (ix2 n (Cert.Spec.col h e)) - Cert.Spec.cenAt cen (Cert.Spec.cls l n) h e) := by
  rw [Read.val_main_v9_apply, Read.val_main_v8_apply, reshaped, gathered l cen hl]
  rfl

/-- One head's average in the reference: the sum of the 256 squared differences from the float zero, over the float 256. -/
theorem head_avg (x : Cert.Spec.SX.Idx → EReal) (l : Cert.Spec.SLab.Idx → BitVec 32) (cen : Cert.Spec.SCen.Idx → EReal)
    (hl : Cert.Spec.InRange l) (n : Fin 16384) (h : Fin 8) :
    Read.val_main_v12 (F := Ideal) x l cen (ix2 n h)
      = Ideal.div
          (Ideal.ofBits .f32 0x00000000#32 + ∑ e : Fin 256,
            (x (ix2 n (Cert.Spec.col h e)) - Cert.Spec.cenAt cen (Cert.Spec.cls l n) h e)
              * (x (ix2 n (Cert.Spec.col h e)) - Cert.Spec.cenAt cen (Cert.Spec.cls l n) h e))
          (Ideal.ofBits .f32 0x43800000#32) := by
  have hs : ∀ e : Fin 256, Read.val_main_v9 (F := Ideal) x l cen (Read.idx_main_v10 (ix2 n h) e)
      = (x (ix2 n (Cert.Spec.col h e)) - Cert.Spec.cenAt cen (Cert.Spec.cls l n) h e)
        * (x (ix2 n (Cert.Spec.col h e)) - Cert.Spec.cenAt cen (Cert.Spec.cls l n) h e) := fun e => by
    have h10 : Read.idx_main_v10 (ix2 n h) e = ix3 n h e := by
      funext a; match a with | ⟨0, _⟩ => rfl | ⟨1, _⟩ => rfl | ⟨2, _⟩ => rfl
    rw [h10]
    exact squared x l cen hl n h e
  rw [Read.val_main_v12_apply, Ideal.hostDivf_def, Read.val_main_v10_apply, Read.val_main_v11_apply,
    Read.val_main_cst_1_apply, Read.val_main_cst_apply, Finset.sum_congr rfl (fun e _ => hs e)]
  rfl

/-- One sample's sum in the reference: the 8 head averages summed from the float zero. -/
theorem sample_sum (x : Cert.Spec.SX.Idx → EReal) (l : Cert.Spec.SLab.Idx → BitVec 32) (cen : Cert.Spec.SCen.Idx → EReal)
    (hl : Cert.Spec.InRange l) (n : Fin 16384) :
    Read.val_main_v13 (F := Ideal) x l cen (ix1 n)
      = Ideal.ofBits .f32 0x00000000#32 + ∑ h : Fin 8,
          Ideal.div
            (Ideal.ofBits .f32 0x00000000#32 + ∑ e : Fin 256,
              (x (ix2 n (Cert.Spec.col h e)) - Cert.Spec.cenAt cen (Cert.Spec.cls l n) h e)
                * (x (ix2 n (Cert.Spec.col h e)) - Cert.Spec.cenAt cen (Cert.Spec.cls l n) h e))
            (Ideal.ofBits .f32 0x43800000#32) := by
  have hs : ∀ h : Fin 8, Read.val_main_v12 (F := Ideal) x l cen (Read.idx_main_v13 (ix1 n) h)
      = Ideal.div
          (Ideal.ofBits .f32 0x00000000#32 + ∑ e : Fin 256,
            (x (ix2 n (Cert.Spec.col h e)) - Cert.Spec.cenAt cen (Cert.Spec.cls l n) h e)
              * (x (ix2 n (Cert.Spec.col h e)) - Cert.Spec.cenAt cen (Cert.Spec.cls l n) h e))
          (Ideal.ofBits .f32 0x43800000#32) := fun h => by
    have h13 : Read.idx_main_v13 (ix1 n) h = ix2 n h := by
      funext a; match a with | ⟨0, _⟩ => rfl | ⟨1, _⟩ => rfl
    rw [h13]
    exact head_avg x l cen hl n h
  rw [Read.val_main_v13_apply, Read.val_main_cst_2_apply, Finset.sum_congr rfl (fun h _ => hs h)]
  rfl

theorem ref_loss (x : Cert.Spec.SX.Idx → EReal) (l : Cert.Spec.SLab.Idx → BitVec 32) (cen : Cert.Spec.SCen.Idx → EReal)
    (hx : Cert.Spec.Finite x) (hc : Cert.Spec.Finite cen) (hl : Cert.Spec.InRange l) :
    Cert.ReferenceIdeal.Read.val_main_v15 (F := Ideal) x l cen = Cert.Spec.lossOf (Cert.Spec.sqErr x l cen) := by
  funext i
  show Read.val_main_v15 (F := Ideal) x l cen i = Ideal.div (Cert.Spec.sqErr x l cen) (Ideal.ofBits .f32 0x4A800000#32)
  rw [← Cert.LossAlgebra.loss_algebra x l cen hx hc hl]
  have hsum : ∑ j : S16384.Idx, Read.val_main_v13 (F := Ideal) x l cen j
      = ∑ n : Fin 16384,
          (Ideal.ofBits .f32 0x00000000#32 + ∑ h : Fin 8,
            Ideal.div
              (Ideal.ofBits .f32 0x00000000#32 + ∑ e : Fin 256,
                (x (ix2 n (Cert.Spec.col h e)) - Cert.Spec.cenAt cen (Cert.Spec.cls l n) h e)
                  * (x (ix2 n (Cert.Spec.col h e)) - Cert.Spec.cenAt cen (Cert.Spec.cls l n) h e))
              (Ideal.ofBits .f32 0x43800000#32)) := by
    rw [sum_idx1]
    exact Finset.sum_congr rfl fun n _ => sample_sum x l cen hl n
  rw [Read.val_main_v15_apply, Ideal.hostDivf_def, Read.val_main_v14_apply, Read.val_main_cst_4_apply,
    Read.val_main_cst_3_apply, hsum]
  rfl

end Cert.RefLoss

end
-- ==== Proof.RefCenters.lean ====
/-
  The reference's new centre table is the specified one.

  The reference scatters one blended slab per sample into the centre table at the sample's class, later samples
  overwriting earlier ones: class c ends at the blend of its last sample, or keeps its centre when no sample
  carries it. The blend of sample n uses the centre slab gathered at its own class, which is class c's.
-/
import proofs.«429359_j54674933678414_1_alg».proof.Proof.Spec
import proofs.«429359_j54674933678414_1_alg».proof.Proof.LibFold
import proofs.«429359_j54674933678414_1_alg».proof.Proof.LibIdx
import proofs.«429359_j54674933678414_1_alg».proof.Proof.Gen.ReferenceIdeal.Read
import Idealize.ShloMosaic.Lib.StableHlo.Predicate

noncomputable section

namespace Cert.RefCenters

open Idealize.ShloMosaic Idealize.ShloMosaic.ValueIdx Cert.ReferenceIdeal

/-- A class word in range is not negative, so the wrap-around select keeps it. -/
theorem wrap_word (w : BitVec 32) (hw : w.toNat < 1000) :
    Scalar.select (IntOp.cmpi .slt w 0#32) (IntOp.addi w 1000#32) w = w := by
  have h0 : ¬ IntOp.cmpi .slt w 0#32 = 1#1 := by
    rw [StableHlo.Predicate.slt_iff_toNat (by omega) (by decide)]
    simp
  rw [eq_zero_of_ne_one h0, select_zero]

/-- The scatter's position word of sample n is its class word. -/
theorem pos26 (l : Cert.Spec.SLab.Idx → BitVec 32) (hl : Cert.Spec.InRange l) (n : Fin 16384) :
    Read.val_main_v26 (F := Ideal) l (ix2 n (0 : Fin 1)) = l (ix1 n) := by
  rw [Read.val_main_v26_apply, Read.val_main_v25_apply, Read.val_main_v22_apply, Read.val_main_v24_apply,
    Read.val_main_v21_apply, Read.val_main_v23_apply, Read.val_main_c_7_apply, Read.val_main_c_8_apply]
  have : Read.idx_main_v26 (ix2 n (0 : Fin 1)) = ix1 n := by
    funext a; match a with | ⟨0, _⟩ => rfl
  rw [this]
  exact wrap_word _ (hl n)

/-- The gather's position word of sample n is its class word. -/
theorem pos5 (l : Cert.Spec.SLab.Idx → BitVec 32) (hl : Cert.Spec.InRange l) (n : Fin 16384) :
    Read.val_main_v5 (F := Ideal) l (ix2 n (0 : Fin 1)) = l (ix1 n) := by
  rw [Read.val_main_v5_apply, Read.val_main_v4_apply, Read.val_main_v1_apply, Read.val_main_v3_apply,
    Read.val_main_v0_apply, Read.val_main_v2_apply, Read.val_main_c_apply, Read.val_main_c_0_apply]
  have : Read.idx_main_v5 (ix2 n (0 : Fin 1)) = ix1 n := by
    funext a; match a with | ⟨0, _⟩ => rfl
  rw [this]
  exact wrap_word _ (hl n)

/-- A class word in range reads, signed, as the class. -/
theorem toInt_cls (l : Cert.Spec.SLab.Idx → BitVec 32) (hl : Cert.Spec.InRange l) (n : Fin 16384) :
    (l (ix1 n)).toInt = (Cert.Spec.cls l n : ℤ) := by
  have := hl n
  exact StableHlo.Predicate.toInt_eq_toNat_of_lt (by omega)

/-- The blended slab of sample n: the two float words times the centre of the sample's own class and the sample. -/
theorem upd_at (x : Cert.Spec.SX.Idx → EReal) (l : Cert.Spec.SLab.Idx → BitVec 32) (cen : Cert.Spec.SCen.Idx → EReal)
    (hl : Cert.Spec.InRange l) (n : Fin 16384) (h : Fin 8) (e : Fin 256) (c : Fin 1000) (hc : Cert.Spec.cls l n = c.val) :
    Read.val_main_v20 (F := Ideal) x l cen (ix3 n h e)
      = Ideal.ofBits .f32 0x3F7FBE77#32 * cen (ix3 c h e) + Ideal.ofBits .f32 0x3A83126F#32 * x (ix2 n (Cert.Spec.col h e)) := by
  rw [Read.val_main_v20_apply, Read.val_main_v17_apply, Read.val_main_v19_apply, Read.val_main_v16_apply,
    Read.val_main_v18_apply, Read.val_main_cst_5_apply, Read.val_main_cst_6_apply, Read.val_main_v7_apply]
  have h7 : Read.idx_main_v7 (ix3 n h e) = ix2 n (Cert.Spec.col h e) := by
    funext a
    match a with
    | ⟨0, _⟩ => apply Fin.ext; show ((n.val * 8 + h.val) * 256 + e.val) / 2048 = n.val; omega
    | ⟨1, _⟩ => apply Fin.ext; show ((n.val * 8 + h.val) * 256 + e.val) % 2048 = 256 * h.val + e.val; omega
  have h6 : Read.val_main_v6 (F := Ideal) l cen (ix3 n h e) = cen (ix3 c h e) := by
    unfold Read.val_main_v6
    rw [LibIdx.gather_rows3_apply _ rfl rfl rfl rfl rfl rfl cen _ n h e (by decide)]
    congr 1
    have hw : (Read.val_main_v5 (F := Ideal) l (ix2 n (0 : Fin 1))).toInt = (c.val : ℤ) := by
      rw [pos5 l hl n, toInt_cls l hl n, hc]
    have hc' := c.isLt
    congr 1
    apply Fin.ext
    show min (Read.val_main_v5 (F := Ideal) l (ix2 n (0 : Fin 1))).toInt.toNat (1000 - 1) = c.val
    rw [hw]; simp; omega
  rw [h7, h6]
  rfl

/-- The row-major number of position (n, h, e) of the update array. -/
def slot (h : Fin 8) (e : Fin 256) (n : Fin 16384) : Fin S16384x8x256.numel :=
  S16384x8x256.rowMajor (ix3 n h e)

/-- That number is (n · 8 + h) · 256 + e. -/
theorem slot_val (h : Fin 8) (e : Fin 256) (n : Fin 16384) :
    (slot h e n).val = (n.val * 8 + h.val) * 256 + e.val := by
  unfold slot
  rw [Shape.rowMajor_val_three]
  rfl

/-- For fixed h and e it grows strictly with the sample n. -/
theorem slot_strictMono (h : Fin 8) (e : Fin 256) : StrictMono (slot h e) := by
  intro a b hab
  have hab' : a.val < b.val := hab
  show (slot h e a).val < (slot h e b).val
  rw [slot_val, slot_val]
  omega

/-- The new centre at class c, head h, coordinate e. -/
theorem ref_centers_at (x : Cert.Spec.SX.Idx → EReal) (l : Cert.Spec.SLab.Idx → BitVec 32) (cen : Cert.Spec.SCen.Idx → EReal)
    (hl : Cert.Spec.InRange l) (c : Fin 1000) (h : Fin 8) (e : Fin 256) :
    Read.val_main_v27 (F := Ideal) x l cen (ix3 c h e) = Cert.Spec.newCenAt x l cen c h e := by
  unfold Read.val_main_v27
  -- the element is the fold, over the update positions landing on (c, h, e), of "keep the update"
  rw [LibFold.scatter_apply]
  -- those positions are (n, h, e) for the samples n of class c, in increasing order of n
  rw [LibFold.filter_finRange_eq_map (slot h e) (slot_strictMono h e) _ (fun n => decide (Cert.Spec.cls l n = c.val))]
  · -- the fold ends at the update of the last such sample, or stays at the centre
    rw [List.foldl_map]
    show List.foldl (fun _ n => Read.val_main_v20 (F := Ideal) x l cen (S16384x8x256.rowMajor.symm (slot h e n)))
      (cen (ix3 c h e)) _ = _
    simp only [slot, Equiv.symm_apply_apply]
    rw [LibFold.foldl_last (fun n => Read.val_main_v20 (F := Ideal) x l cen (ix3 n h e))]
    unfold Cert.Spec.newCenAt Cert.Spec.lastOcc
    cases hL : ((List.finRange 16384).filter (fun n => decide (Cert.Spec.cls l n = c.val))).getLast? with
    | none => rfl
    | some n =>
      have hm := List.mem_of_getLast? hL
      rw [List.mem_filter, decide_eq_true_eq] at hm
      exact upd_at x l cen hl n h e c hm.2
  · -- position (n', h', e') lands on (c, h, e) exactly when sample n' has class c, h' = h and e' = e
    intro j
    obtain ⟨k, rfl⟩ : ∃ k, j = S16384x8x256.rowMajor k := ⟨S16384x8x256.rowMajor.symm j, by simp⟩
    obtain ⟨n', h', e', rfl⟩ : ∃ (n' : Fin 16384) (h' : Fin 8) (e' : Fin 256), k = ix3 n' h' e' :=
      ⟨k 0, k 1, k 2, eq_ix3 k⟩
    rw [Equiv.symm_apply_apply, decide_eq_true_eq,
      LibIdx.resultIdx_rows3 _ rfl rfl rfl rfl _ n' h' e' c h e, pos26 l hl n', toInt_cls l hl n']
    constructor
    · rintro ⟨h1, rfl, rfl⟩
      exact ⟨n', by simpa using h1, rfl⟩
    · rintro ⟨n, hn, hg⟩
      have hk := S16384x8x256.rowMajor.injective hg
      have e0 : n = n' := congrFun hk 0
      have e1 : h = h' := congrFun hk 1
      have e2 : e = e' := congrFun hk 2
      subst e0 e1 e2
      exact ⟨by simpa using hn, rfl, rfl⟩

theorem ref_centers (x : Cert.Spec.SX.Idx → EReal) (l : Cert.Spec.SLab.Idx → BitVec 32) (cen : Cert.Spec.SCen.Idx → EReal)
    (hl : Cert.Spec.InRange l) :
    Cert.ReferenceIdeal.Read.val_main_v27 (F := Ideal) x l cen = Cert.Spec.newCen x l cen := by
  funext i
  rw [eq_ix3 i]
  exact ref_centers_at x l cen hl (i 0) (i 1) (i 2)

end Cert.RefCenters

end
-- ==== Proof.PreDecode.lean ====
/-
  What the precondition says of the arguments: every sample entry and every centre entry is a real number, and
  every class word is one of the 1000 classes.
-/
import proofs.«429359_j54674933678414_1_alg».proof.Proof.Spec
import proofs.«429359_j54674933678414_1_alg».proof.Proof.Gen.Pre_finite_inputs
import Idealize.ShloMosaic.Lib.ReduceAll
import Idealize.ShloMosaic.Lib.StableHlo.Predicate

noncomputable section

namespace Cert.PreDecode

open Idealize.ShloMosaic Idealize.ShloMosaic.ValueIdx Cert.Pre_finite_inputs Cert.Pre_finite_inputs.Gen

/-- The result of a reduction over all axes has exactly one index. -/
instance : Subsingleton S_.Idx := ⟨fun a b => funext fun d => d.elim0⟩

/-- The float word 0x7F800000 (exponent all ones, significand zero, sign clear) is +∞. -/
theorem ofBits_inf : Ideal.ofBits .f32 0x7F800000#32 = (⊤ : EReal) := by
  simp [Ideal.ofBits, Ideal.ieee]

/-- |a| < +∞ leaves only the real numbers: |−∞| = |+∞| = +∞ is not below +∞. -/
theorem real_of_abs_lt (a : EReal)
    (h : Ideal.cmp .olt (max a (-a)) (Ideal.ofBits .f32 0x7F800000#32) = 1#1) : ∃ r : ℝ, a = (r : EReal) := by
  rw [ofBits_inf] at h
  simp only [Ideal.cmp, StableHlo.Predicate.ofBool_eq_one_iff, decide_eq_true_eq] at h
  induction a using EReal.rec with
  | bot => simp at h
  | coe r => exact ⟨r, rfl⟩
  | top => simp at h

/-- A word w with 0 ≤ w < 1000 as signed numbers has its sign bit clear, so its unsigned value is its signed
    value and lies below 1000. -/
theorem word_lt (w : BitVec 32) (h0 : IntOp.cmpi .sge w 0#32 = 1#1) (h1 : IntOp.cmpi .slt w 1000#32 = 1#1) :
    w.toNat < 1000 := by
  simp only [IntOp.cmpi, StableHlo.Predicate.ofBool_eq_one_iff, BitVec.sle, BitVec.slt, decide_eq_true_eq] at h0 h1
  have e0 : (0#32 : BitVec 32).toInt = 0 := by decide
  have e1 : (1000#32 : BitVec 32).toInt = 1000 := by decide
  rw [e0] at h0; rw [e1] at h1
  rw [BitVec.toInt_eq_toNat_cond] at h0 h1
  split at h0 <;> omega

theorem decode (x : Cert.Spec.SX.Idx → EReal) (l : Cert.Spec.SLab.Idx → BitVec 32) (cen : Cert.Spec.SCen.Idx → EReal)
    (h : Cert.Pre_finite_inputs.fn (F := Ideal) x l cen = fun _ => 1#1) :
    Cert.Spec.Finite x ∧ Cert.Spec.InRange l ∧ Cert.Spec.Finite cen := by
  -- the precondition at its one index: a conjunction of four "for all" reductions
  have h' := congrFun h ValueIdx.ix0
  dsimp only [Cert.Pre_finite_inputs.fn, Cert.Pre_finite_inputs.fn_part1] at h'
  dsimp only [Idealize.ShloMosaic.andi] at h'
  obtain ⟨h123, h4⟩ := IntOp.andi_eq_one.1 h'
  obtain ⟨h12, h3⟩ := IntOp.andi_eq_one.1 h123
  obtain ⟨h1, h2⟩ := IntOp.andi_eq_one.1 h12
  -- each reduction by "and" that came out 1 met a 1 at every element
  have a1 := Host.reduce_andi_all _ _ _ _ _ h1
  have a2 := Host.reduce_andi_all _ _ _ _ _ h2
  have a3 := Host.reduce_andi_all _ _ _ _ _ h3
  have a4 := Host.reduce_andi_all _ _ _ _ _ h4
  refine ⟨fun i => ?_, fun n => ?_, fun i => ?_⟩
  · exact real_of_abs_lt (x i) (a1 i)
  · exact word_lt _ (a3 (ix1 n)) (a4 (ix1 n))
  · exact real_of_abs_lt (cen i) (a2 i)

end Cert.PreDecode

end
-- ==== Proof.lean ====
/-
  The kernel computes a one-hot-gathered squared-error loss in one accumulating region and updates the class centres
  on the host from each class's last sample; the reference gathers, averages head by head, and scatters blended slabs
  with later samples overwriting earlier ones. Under the precondition (finite entries, class words in 0 … 999) both
  programs end with the same loss and the same new centre table:

  * the loss: both are the total squared error over samples, heads and coordinates divided by 4194304 — the kernel's
    one-hot product picks a row's centre, and the reference's divisions by 256 and by 16384 combine over real numbers;
  * the centres: both give class c the blend of its LAST sample, or leave it alone when no sample carries it.

  The kernel's frames are its generated frame runs; the reference's is its generated run with the results dropped.
-/
import proofs.«429359_j54674933678414_1_alg».proof.Defs
import proofs.«429359_j54674933678414_1_alg».proof.Proof.Gen.Kernel
import proofs.«429359_j54674933678414_1_alg».proof.Proof.Gen.Kernel.Skeleton
import proofs.«429359_j54674933678414_1_alg».proof.Proof.Gen.Kernel.Launch
import proofs.«429359_j54674933678414_1_alg».proof.Proof.Gen.Kernel.Points
import proofs.«429359_j54674933678414_1_alg».proof.Proof.Gen.Kernel.Frame
import proofs.«429359_j54674933678414_1_alg».proof.Proof.Gen.KernelIdeal
import proofs.«429359_j54674933678414_1_alg».proof.Proof.Gen.KernelIdeal.Skeleton
import proofs.«429359_j54674933678414_1_alg».proof.Proof.Gen.KernelIdeal.Launch
import proofs.«429359_j54674933678414_1_alg».proof.Proof.Gen.KernelIdeal.Points
import proofs.«429359_j54674933678414_1_alg».proof.Proof.Gen.KernelIdeal.Frame
import proofs.«429359_j54674933678414_1_alg».proof.Proof.Gen.ReferenceIdeal
import proofs.«429359_j54674933678414_1_alg».proof.Proof.Gen.ReferenceIdeal.Run
import proofs.«429359_j54674933678414_1_alg».proof.Proof.Gen.ReferenceIdeal.Read
import proofs.«429359_j54674933678414_1_alg».proof.Proof.Gen.Pre_finite_inputs
import proofs.«429359_j54674933678414_1_alg».proof.Proof.KernelRun
import proofs.«429359_j54674933678414_1_alg».proof.Proof.KernelLoss
import proofs.«429359_j54674933678414_1_alg».proof.Proof.KernelCenters
import proofs.«429359_j54674933678414_1_alg».proof.Proof.RefLoss
import proofs.«429359_j54674933678414_1_alg».proof.Proof.RefCenters
import proofs.«429359_j54674933678414_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end at the specified loss and centre table of the (agreeing) arguments. -/
theorem algebraic : Cert.algebraic_KernelIdeal_ReferenceIdeal := by
  intro m ρ m' ρ' hpre hagree
  refine ⟨fun c => Cert.Spec.lossOf (Cert.Spec.sqErr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
      fun c => Cert.Spec.newCen
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Run.run m ρ)
    obtain ⟨hx, hl, hc⟩ := Cert.PreDecode.decode _ _ _ (hpre c)
    exact ⟨(h c).1.trans (congrArg Cert.Spec.lossOf (Cert.KernelLoss.kernel_sq _ _ _ hl)),
      (h c).2.1.trans (Cert.KernelCenters.kernel_centers _ _ _ hl), (h c).2.2⟩
  · refine (θ_run Cert.ReferenceIdeal.defs _ _).mono (fun _ h c => ?_) (Cert.ReferenceIdeal.Value.run (F := Ideal) m' ρ')
    obtain ⟨hx, hl, hc⟩ := Cert.PreDecode.decode _ _ _ (hpre c)
    refine ⟨(h c).1.trans ?_, (h c).2.1.trans ?_, (h c).2.2⟩
    · rw [(hagree c).1, (hagree c).2.1, (hagree c).2.2]
      exact Cert.RefLoss.ref_loss _ _ _ hx hc hl
    · rw [(hagree c).1, (hagree c).2.1, (hagree c).2.2]
      exact Cert.RefCenters.ref_centers _ _ _ hl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
